-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S512x100000 : Shape := ⟨2, ![512, 100000]⟩
abbrev S_ : Shape := ⟨0, ![]⟩
abbrev S100000 : Shape := ⟨1, ![100000]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_
  reducesTo_S_S_d : S_.ReducesTo [] S_
  bcast_S_S512 : S_.BroadcastsInDim S512 (![] : Fin 0 → Fin S512.rank)
  reducesTo_S512_S_d0 : S512.ReducesTo [0] S_
  reducesTo_S512x100000_S100000_d0 : S512x100000.ReducesTo [0] S100000
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S512 32) (main_arg2 : FVec F S512x100000 .f32) (main_v12 : IVec S_ 1) (main_v15 : IVec S_ 1) : IVec S_ 1 :=
  let main_v16 : IVec S_ 1 := andi main_v12 main_v15
  let main_c_6 : IVec S_ 32 := constantI S_ 32 100000#32
  let main_v17 : IVec S512 32 := broadcastInDim S512 ![] bcast_S_S512 main_c_6
  let main_v18 : IVec S512 1 := cmpi .slt main_arg1 main_v17
  let main_c_7 : IVec S_ 1 := constantI S_ 1 1#1
  let main_v19 : IVec S_ 1 := (fun x v => Host.reduce IntOp.andi x v reducesTo_S512_S_d0 h_S_) main_v18 main_c_7
  let main_v20 : IVec S_ 1 := andi main_v16 main_v19
  let main_v21 : FVec F S512x100000 .f32 := mulf main_arg2 main_arg2
  let main_cst_8 : FVec F S_ .f32 := constant S_ .f32 0x00000000#32
  let main_v22 : FVec F S100000 .f32 := (fun x v => Host.reduceAdd x v reducesTo_S512x100000_S100000_d0 h_S_) main_v21 main_cst_8
  let main_cst_9 : FVec F S_ .f32 := constant S_ .f32 0x00000000#32
  let main_v23 : FVec F S100000 .f32 := broadcastInDim S100000 ![] bcast_S_S100000 main_cst_9
  let main_v24 : IVec S100000 1 := cmpf .ogt main_v22 main_v23
  let main_c_10 : IVec S_ 1 := constantI S_ 1 1#1
  let main_v25 : IVec S_ 1 := (fun x v => Host.reduce IntOp.andi x v reducesTo_S100000_S_d0 h_S_) main_v24 main_c_10
  let main_v26 : IVec S_ 1 := andi main_v20 main_v25
  main_v26

def fn {F : FTy → Type} [FloatOps F] (main_arg0 : FVec F S512x512 .f32) (main_arg1 : IVec S512 32) (main_arg2 : FVec F S512x100000 .f32) (main_arg3 : FVec F S_ .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x100000 .f32 := Host.absf main_arg2
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S512 32 := broadcastInDim S512 ![] bcast_S_S512 main_c_4
  let main_v14 : IVec S512 1 := cmpi .sge main_arg1 main_v13
  let main_c_5 : IVec S_ 1 := constantI S_ 1 1#1
  let main_v15 : IVec S_ 1 := (fun x v => Host.reduce IntOp.andi x v reducesTo_S512_S_d0 h_S_) main_v14 main_c_5
  fn_part1 (F := F) main_arg1 main_arg2 main_v12 main_v15
-- ==== Kernel.lean ====
abbrev S512x512 : Shape := ⟨2, ![512, 512]⟩
abbrev S512 : Shape := ⟨1, ![512]⟩
abbrev S512x100000 : Shape := ⟨2, ![512, 100000]⟩
abbrev S_ : Shape := ⟨0, ![]⟩
abbrev S512x1 : Shape := ⟨2, ![512, 1]⟩
abbrev S1x1 : Shape := ⟨2, ![1, 1]⟩
abbrev S512x2048 : Shape := ⟨2, ![512, 2048]⟩
abbrev S1x2048 : Shape := ⟨2, ![1, 2048]⟩
abbrev S2048 : Shape := ⟨1, ![2048]⟩

abbrev nBuf : Space → Nat
  | .hbm => 77
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x100000, .f32⟩
  | .hbm, ⟨3, _⟩ => ⟨S_, .f32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S512x512, .f32⟩
  | .hbm, ⟨10, _⟩ => ⟨S512x512, .f32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512, .f32⟩
  | .hbm, ⟨24, _⟩ => ⟨S512x512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S512, .f32⟩
  | .hbm, ⟨63, _⟩ => ⟨S512, .i1⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S512x512, .bf16⟩
  | .hbm, ⟨69, _⟩ => ⟨S512x1, .i32⟩
  | .hbm, ⟨70, _⟩ => ⟨S512x1, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512x1, .f32⟩
  | .hbm, ⟨75, _⟩ => ⟨S1x1, .f32⟩
  | .hbm, ⟨76, _⟩ => ⟨S512x100000, .f32⟩
  | .local _ .vmem, ⟨0, _⟩ => ⟨S512x512, .bf16⟩
  | .local _ .vmem, ⟨1, _⟩ => ⟨S512x2048, .f32⟩
  | .local _ .vmem, ⟨2, _⟩ => ⟨S512x2048, .f32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_cst_12 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_14 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S_S512 : S_.BroadcastsInDim S512 (![] : Fin 0 → Fin S512.rank)
  transposes_S512x512_S512x512_1_0 : S512x512.Transposes [1, 0] S512x512
  reducesTo_S512_S_d0 : S512.ReducesTo [0] S_
  bitsLt_bf16_f32 : FTy.bits .bf16 < FTy.bits .f32
  shapeCasts_S512_S512x1 : S512.ShapeCasts S512x1
  shapeCasts_S_S1x1 : S_.ShapeCasts S1x1
  iota_S1x2048_d1_w32 : S1x2048.Iotas .tc 32 [1]
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2048 : S1x1.Broadcasts S512x2048
  gather_S512x100000_S512x1_S512x512_0_1_n_n_1_1_5121_wf : GatherDims.WF S512x100000 S512x1 S512x512 [0] [1] [] [1] [] 1 ![512, 1]
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x2048.size a < S512x100000.size a
  hwx0_1 : ∀ i : grid0.Coords, EltTy.bits .f32 = 32 ∨ (Rect.unit (s := S512x100000) (fun a => cc0_transform_1 i a * S512x2048.size a) (fun a => (Pipeline.Clip.of (cc0_transform_1 i a) (S512x2048.size a) (S512x100000.size a)).extent (S512x2048.size a)) fun a => Pipeline.Clip.inb (Pipeline.Clip.ok_of (hstart0_1 i a))).WholeWords (EltTy.packing .f32)
  hwxs0_1 : ∀ i : grid0.Coords, EltTy.bits .f32 = 32 ∨ (Rect.unit (s := S512x2048) (fun _ => 0) (fun a => (Pipeline.Clip.of (cc0_transform_1 i a) (S512x2048.size a) (S512x100000.size a)).extent (S512x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x2048.size a < S512x100000.size a
  hwx0_6 : ∀ i : grid0.Coords, EltTy.bits .f32 = 32 ∨ (Rect.unit (s := S512x100000) (fun a => cc0_transform_6 i a * S512x2048.size a) (fun a => (Pipeline.Clip.of (cc0_transform_6 i a) (S512x2048.size a) (S512x100000.size a)).extent (S512x2048.size a)) fun a => Pipeline.Clip.inb (Pipeline.Clip.ok_of (hstart0_6 i a))).WholeWords (EltTy.packing .f32)
  hwxs0_6 : ∀ i : grid0.Coords, EltTy.bits .f32 = 32 ∨ (Rect.unit (s := S512x2048) (fun _ => 0) (fun a => (Pipeline.Clip.of (cc0_transform_6 i a) (S512x2048.size a) (S512x100000.size a)).extent (S512x2048.size a)) fun a => (Nat.zero_add _).trans_le (Pipeline.Clip.extent_le (Pipeline.Clip.ok_of (hstart0_6 i a)))).WholeWords (EltTy.packing .f32)

variable [Facts₀]

def gather_S512x100000_S512x1_S512x512_0_1_n_n_1_1_5121 : GatherDims S512x100000 S512x1 S512x512 where
  offsetDims := [0]
  collapsedSliceDims := [1]
  operandBatchingDims := []
  startIndicesBatchingDims := []
  startIndexMap := [1]
  indexVectorDim := 1
  sliceSizes := ![512, 1]
  wf := gather_S512x100000_S512x1_S512x512_0_1_n_n_1_1_5121_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v39) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S512x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v40) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v46) S512x2048.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S512x100000 : Shape := ⟨2, ![512, 100000]⟩
abbrev S_ : Shape := ⟨0, ![]⟩
abbrev S512x1 : Shape := ⟨2, ![512, 1]⟩
abbrev S100000 : Shape := ⟨1, ![100000]⟩
abbrev S1x100000 : Shape := ⟨2, ![1, 100000]⟩
abbrev S512x2 : Shape := ⟨2, ![512, 2]⟩

abbrev nBuf : Space → Nat
  | .hbm => 103
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x100000, .f32⟩
  | .hbm, ⟨3, _⟩ => ⟨S_, .f32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S512x512, .f32⟩
  | .hbm, ⟨10, _⟩ => ⟨S512x512, .f32⟩
  | .hbm, ⟨11, _⟩ => ⟨S512x100000, .f32⟩
  | .hbm, ⟨12, _⟩ => ⟨S_, .f32⟩
  | .hbm, ⟨13, _⟩ => ⟨S100000, .f32⟩
  | .hbm, ⟨14, _⟩ => ⟨S1x100000, .f32⟩
  | .hbm, ⟨15, _⟩ => ⟨S1x100000, .f32⟩
  | .hbm, ⟨16, _⟩ => ⟨S512x100000, .f32⟩
  | .hbm, ⟨17, _⟩ => ⟨S512x100000, .f32⟩
  | .hbm, ⟨18, _⟩ => ⟨S512x100000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512x100000, .f32⟩
  | .hbm, ⟨23, _⟩ => ⟨S512x100000, .f32⟩
  | .hbm, ⟨24, _⟩ => ⟨S_, .f32⟩
  | .hbm, ⟨25, _⟩ => ⟨S512x100000, .f32⟩
  | .hbm, ⟨26, _⟩ => ⟨S512x100000, .f32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S512x1, .i32⟩
  | .hbm, ⟨44, _⟩ => ⟨S512x2, .i32⟩
  | .hbm, ⟨45, _⟩ => ⟨S512, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S512x100000, .f32⟩
  | .hbm, ⟨60, _⟩ => ⟨S512x100000, .i1⟩
  | .hbm, ⟨61, _⟩ => ⟨S_, .f32⟩
  | .hbm, ⟨62, _⟩ => ⟨S512x1, .f32⟩
  | .hbm, ⟨63, _⟩ => ⟨S512x1, .i1⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S512x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S512x100000, .f32⟩
  | .hbm, ⟨78, _⟩ => ⟨S512x100000, .f32⟩
  | .hbm, ⟨79, _⟩ => ⟨S512x100000, .f32⟩
  | .hbm, ⟨80, _⟩ => ⟨S512x100000, .f32⟩
  | .hbm, ⟨81, _⟩ => ⟨S512, .f32⟩
  | .hbm, ⟨82, _⟩ => ⟨S_, .i32⟩
  | .hbm, ⟨83, _⟩ => ⟨S512, .i32⟩
  | .hbm, ⟨84, _⟩ => ⟨S512, .i1⟩
  | .hbm, ⟨85, _⟩ => ⟨S_, .i32⟩
  | .hbm, ⟨86, _⟩ => ⟨S512, .i32⟩
  | .hbm, ⟨87, _⟩ => ⟨S512, .i32⟩
  | .hbm, ⟨88, _⟩ => ⟨S512, .i32⟩
  | .hbm, ⟨89, _⟩ => ⟨S_, .i32⟩
  | .hbm, ⟨90, _⟩ => ⟨S512, .i32⟩
  | .hbm, ⟨91, _⟩ => ⟨S512, .i1⟩
  | .hbm, ⟨92, _⟩ => ⟨S_, .i32⟩
  | .hbm, ⟨93, _⟩ => ⟨S512, .i32⟩
  | .hbm, ⟨94, _⟩ => ⟨S512, .i32⟩
  | .hbm, ⟨95, _⟩ => ⟨S512, .i32⟩
  | .hbm, ⟨96, _⟩ => ⟨S512x1, .i32⟩
  | .hbm, ⟨97, _⟩ => ⟨S512x1, .i32⟩
  | .hbm, ⟨98, _⟩ => ⟨S512x2, .i32⟩
  | .hbm, ⟨99, _⟩ => ⟨S512x100000, .f32⟩
  | .hbm, ⟨100, _⟩ => ⟨S_, .f32⟩
  | .hbm, ⟨101, _⟩ => ⟨S512x100000, .f32⟩
  | .hbm, ⟨102, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_0 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_cst_11 : Ref sig .tc := ⟨.hbm, 72, rfl⟩
abbrev main_v42 : Ref sig .tc := ⟨.hbm, 73, rfl⟩
abbrev main_cst_12 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_15 : Ref sig .tc := ⟨.hbm, 89, rfl⟩
abbrev main_v55 : Ref sig .tc := ⟨.hbm, 90, rfl⟩
abbrev main_v56 : Ref sig .tc := ⟨.hbm, 91, rfl⟩
abbrev main_c_16 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_17 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  reducesTo_S512x100000_S100000_d0 : S512x100000.ReducesTo [0] S100000
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  bcast_S_S512x100000 : S_.BroadcastsInDim S512x100000 (![] : Fin 0 → Fin S512x100000.rank)
  bcast_S_S512 : S_.BroadcastsInDim S512 (![] : Fin 0 → Fin S512.rank)
  concatenates_S512x1_S512x1_S512x2_d1 : Shape.Concatenates [S512x1, S512x1] S512x2 1
  bcast_S_S512x1 : S_.BroadcastsInDim S512x1 (![] : Fin 0 → Fin S512x1.rank)
  bcast_S512x1_S512x100000_0_1 : S512x1.BroadcastsInDim S512x100000 (![0, 1] : Fin 2 → Fin S512x100000.rank)
  reducesTo_S512x1_S_d0_1 : S512x1.ReducesTo [0, 1] S_
  shapeCasts_S512x1_S512 : S512x1.ShapeCasts S512
  dot_S512x512_S512x100000_S512x100000_1_0_0_1_n_n_wf : DotDims.WF S512x512 S512x100000 S512x100000 [1] [0] [0] [1] [] []
  gather_S512x100000_S512x2_S512_n_01_n_n_01_1_11_wf : GatherDims.WF S512x100000 S512x2 S512 [] [0, 1] [] [0, 1] [] 1 ![1, 1]
  scatter_S512x100000_S512x2_S512_n_01_01_1_wf : ScatterDims.WF S512x100000 S512x2 S512 [] [0, 1] [0, 1] 1

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf
def gather_S512x100000_S512x2_S512_n_01_n_n_01_1_11 : GatherDims S512x100000 S512x2 S512 where
  offsetDims := []
  collapsedSliceDims := [0, 1]
  operandBatchingDims := []
  startIndicesBatchingDims := []
  startIndexMap := [0, 1]
  indexVectorDim := 1
  sliceSizes := ![1, 1]
  wf := gather_S512x100000_S512x2_S512_n_01_n_n_01_1_11_wf
def scatter_S512x100000_S512x2_S512_n_01_01_1 : ScatterDims S512x100000 S512x2 S512 where
  updateWindowDims := []
  insertedWindowDims := [0, 1]
  scatterDimsToOperandDims := [0, 1]
  indexVectorDim := 1
  wf := scatter_S512x100000_S512x2_S512_n_01_01_1_wf

class Facts : Prop extends Facts₀ where

variable [Facts]
-- ==== Proof.KernelBitsFrame.lean ====
/-
  The word-level kernel program's run: every weakly fair execution terminates without a fault and leaves the four
  argument arrays as they were. Nothing is said of what the kernel writes into its result: the proof data are
  relational — a staging buffer of an input window is left as it was found, a staging buffer of the result's window
  may be left at anything —, so the words past the class matrix's last column, which the last column tile's buffer
  holds and nothing names, are never spoken of.
-/
import proofs.«422900_j39505109189162_2_alg».proof.Defs
import proofs.«422900_j39505109189162_2_alg».proof.Proof.Gen.Pre_finite_inputs
import proofs.«422900_j39505109189162_2_alg».proof.Proof.Gen.Kernel.Frame
import proofs.«422900_j39505109189162_2_alg».proof.Proof.Gen.Kernel.Skeleton
import proofs.«422900_j39505109189162_2_alg».proof.Proof.Gen.Kernel.Launch
import proofs.«422900_j39505109189162_2_alg».proof.Proof.Gen.Kernel.Points
import Idealize.ShloMosaic.Lib.Pipeline.Kit
import Idealize.ShloMosaic.Lib.Pipeline.Cells
import Idealize.ShloMosaic.Lib.Pipeline.Frame
import Idealize.ShloMosaic.Lib.Tactic

noncomputable section

namespace Cert.Kernel.BitsRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging memrefs -/

/-- The body's triple: on whole staging memrefs, the six inputs' at any contents and the result's at anything, the body
    runs to the continuation holding the inputs' as they were and the result's at some contents. -/
theorem kernelRun (c : Dev nD) (i : grid0.Coords)
    (arg1 : Memref sig .tc .vmem S512x512 .bf16) (harg1 : arg1.IsWhole) (arg2 : Memref sig .tc .vmem S512x2048 .f32) (harg2 : arg2.IsWhole)
    (arg3 : Memref sig .tc .vmem S512x1 .i32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S1x1 .f32) (harg6 : arg6.IsWhole)
    (arg7 : Memref sig .tc .vmem S512x2048 .f32) (harg7 : arg7.IsWhole)
    (x1 : Vec F S512x512 .bf16) (x2 : Vec F S512x2048 .f32) (x3 : Vec F S512x1 .i32) (x4 : Vec F S512x1 .f32) (x5 : Vec F S512x1 .f32)
    (x6 : Vec F S1x1 .f32) :
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ (∃ d, owns (c : Thread nD τ) arg7 fullShare d)) -∗ K ⟨⟩))
          ⊢ wp frame (wpE (defs₀ (F := F)) Variants.none c none) E
              (cc0__masked_kernel i arg1 harg1 arg2 harg2 arg3 harg3 arg4 harg4 arg5 harg5 arg6 harg6 arg7 harg7) K := by
  intro E K
  simp only [cc0__masked_kernel_eq_skeleton]; unfold cc0__masked_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  iexists _, _; isplitr; swap; · iexact H7
  ipureintro; rfl

/-! ## The proof data -/

/-- The proof data of the one pipeline on core `c`: the arrays as the region finds them; the body leaves an input window's
    staging buffer as it found it, and of what it leaves in the result window's nothing is said; the invariant is the
    scoped rest and the generator register; nothing owed; full shares. -/
def rdat (c : Dev nD) : RDat τ (Elt F) Unit ℕ (UR sig nD τ) ℕ cfg0 c where
  A w := V m c (Pipeline.arrRef spec0 w)
  after w _ Y X := w.val = 6 ∨ X = Y
  Φ _ := Pipeline.ΦA spec0 c
  q _ := fullShare
  owed _ := 0

theorem A_eq (c : Dev nD) (w : Fin cfg0.W) : (rdat m c).A w = V m c (Pipeline.arrRef spec0 w) := by
  dsimp only [rdat]

theorem share_eq (c : Dev nD) (w : Fin cfg0.W) : (rdat m c).share w = fullShare := by
  unfold RDat.share; split <;> rfl

/-! ## The body obligation -/

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X))

/-- The body at any point, whatever the staging buffers hold: the triple applies; the invariant passes through unread;
    the core owes nothing throughout. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6⟩
  iapply ((kernelRun c (grid0.coords t) _ _ _ _ _ _ _ _ _ _ _ _ _ _ (Y 0) (Y 1) (Y 2) (Y 3) (Y 4) (Y 5)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%d, H6⟩⟩
  isplitl [HΦ]; · iexact HΦ
  isplitl [Ho]; · iexact Ho
  isplitl [H0]
  · iexists _; isplitr; · ipureintro; exact Or.inr rfl
    iexact H0
  isplitl [H1]
  · iexists _; isplitr; · ipureintro; exact Or.inr rfl
    iexact H1
  isplitl [H2]
  · iexists _; isplitr; · ipureintro; exact Or.inr rfl
    iexact H2
  isplitl [H3]
  · iexists _; isplitr; · ipureintro; exact Or.inr rfl
    iexact H3
  isplitl [H4]
  · iexists _; isplitr; · ipureintro; exact Or.inr rfl
    iexact H4
  isplitl [H5]
  · iexists _; isplitr; · ipureintro; exact Or.inr rfl
    iexact H5
  iexists d; isplitr; · ipureintro; exact Or.inl rfl
  iexact H6

/-- The library's body obligation, at every point. -/
theorem body_obligation (c : Dev nD) : (rdat m c).BodyObligation (defs₀ (F := F)) Variants.none () Set.univ := fun t Y _ => by
  rw [bigSep_W0, bigSep_W0]
  exact sound_body m c t Y

/-! ## The run and the frame -/

set_option backward.isDefEq.respectTransparency.types false in
/-- At the compiled mesh, for any values, from any memory with zero counters: every weakly fair execution of the program on
    the TensorCores terminates, and every final state has every input array of the pipeline as the region found it, the
    result array at contents nothing constrains, and every other unscoped buffer at its region-entry contents. -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := body_obligation m) (hshare := share_eq m)
    (howed := fun _ _ => rfl) (V := V m) (hmain := hmain m Variants.none) (hA := A_eq m) (hΦ := fun _ _ => rfl)

/-- The four argument arrays end as launched: the class matrix is an input window's array, never written, and was not
    touched before the region; the other three are staged by no window and no host operation writes them. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c)),
      ((h c).2 main_arg3 (Pipeline.mem_restRefs_of main_arg3 (by decide) (by decide))).trans (V_main_arg3 m c)⟩) (run_main m ρ)

/-- The frame claim of the word-level kernel program. -/
theorem frame : Cert.frame_Kernel := fun m g _ => frame_any (F := Bits) m g

end Cert.Kernel.BitsRun

end
-- ==== Proof.KernelData.lean ====
/-
  The proof data of the one pipeline at the ideal values: what each window's staging buffer holds after the body at
  each grid point. The five small inputs and the embeddings are resident: their buffers hold their whole arrays.
  The class matrix is read in column tiles of 2048; the last tile reaches 352 columns past the matrix's end, and what
  the buffer holds there is nothing the program names — `tileAt` takes zero there, and every column of the result that
  lies inside the matrix is computed from columns inside the matrix only. The output tile after the body is the
  body's one payload of those blocks.
-/
import proofs.«422900_j39505109189162_2_alg».proof.Proof.Gen.KernelIdeal.Frame
import proofs.«422900_j39505109189162_2_alg».proof.Proof.Gen.KernelIdeal.Skeleton
import Idealize.ShloMosaic.PureOps.Ideal
import Idealize.ShloMosaic.Lib.ValueIdx

set_option maxRecDepth 16384

noncomputable section

namespace Cert.KernelIdeal.Data

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (m : (ℓ : Loc nD τ sig) → Buf (Elt Ideal) ℓ)

/-- The four argument arrays on core `c`, as plain functions: the embeddings, the label words by row, the class matrix,
    and the running mean. -/
abbrev argX (c : Dev nD) : S512x512.Idx → EReal := m ((c.tc : Thread nD τ).loc main_arg0)
abbrev argLab (c : Dev nD) : Fin 512 → BitVec 32 := fun b => (m ((c.tc : Thread nD τ).loc main_arg1) : S512.Idx → BitVec 32) (ValueIdx.ix1 b)
abbrev argK (c : Dev nD) : S512x100000.Idx → EReal := m ((c.tc : Thread nD τ).loc main_arg2)
abbrev argT (c : Dev nD) : EReal := (m ((c.tc : Thread nD τ).loc main_arg3) : S_.Idx → EReal) ValueIdx.ix0

/-- The class-matrix tile at point `t`: the matrix's columns `2048·t …`, and zero past the matrix's last column. -/
def tileAt (c : Dev nD) (t : Fin cfg0.N) : S512x2048.Idx → Elt Ideal .f32 :=
  win0_1.fill (grid0.coords t) (fun _ => (0 : EReal)) (iblk m c 1 t)

/-- The output tile the body leaves at point `t`: its payload of the tile and the resident blocks. -/
def outAt (c : Dev nD) (t : Fin cfg0.N) : S512x2048.Idx → Elt Ideal .f32 :=
  k0_pay1 (F := Ideal) (grid0.coords t) (tileAt m c t) (iblk m c 0 t) (iblk m c 3 t) (iblk m c 5 t) (iblk m c 2 t) (iblk m c 4 t)

/-- The proof data: the arrays as the region finds them; after the body every input buffer holds its block (the
    class-matrix tile filled out with zero) and the output buffer the payload; the class invariant; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => tileAt m c t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

end Cert.KernelIdeal.Data

end
-- ==== Proof.Spec.lean ====
/-
  The margin-logit computation both programs perform, as functions on the extended reals, in the two arrangements
  they use. Rows of the embedding matrix are divided by their Euclidean norm; a class column `j` of the weight
  matrix has squared norm `colSq k j`; the cosine of row `b` against column `j` is the clipped normalised dot
  product. The reference normalises each column first (`cosRef`: every entry divided by the column's norm, then the
  dot product); the kernel scales the raw dot product by the reciprocal square root of the squared norm (`cosKer`),
  and takes each row's target cosine from the raw dot product divided by the norm (`tlKer`). From the target cosine
  `tl` of a row come the margin threshold `tl·cos m − sin θ·sin m`, the adjusted target and the running mean's update;
  a cosine above the row's threshold is re-weighted `c·(t' + c)`, the target column is overwritten by the adjusted target,
  and everything is scaled by 64 — the reference at the very end, the kernel inside each product.
-/
import Idealize.ShloMosaic.PureOps.Ideal
import Idealize.ShloMosaic.Lib.ValueIdx

noncomputable section

namespace Cert.Margin

open Idealize.ShloMosaic Idealize.ShloMosaic.ValueIdx

/-- Embeddings `[B, D]`. -/
abbrev SBD : Shape := ⟨2, ![512, 512]⟩
/-- The class matrix `[D, N]`, and the logits `[B, N]` (the same extents here). -/
abbrev SDN : Shape := ⟨2, ![512, 100000]⟩
/-- One column tile of the class matrix, and of the logits. -/
abbrev STile : Shape := ⟨2, ![512, 2048]⟩
abbrev SB : Shape := ⟨1, ![512]⟩
abbrev S0 : Shape := ⟨0, ![]⟩

/-! ## The constants, as the words both programs print -/

abbrev one : EReal := Ideal.ofBits .f32 0x3F800000#32
abbrev negOne : EReal := Ideal.ofBits .f32 0xBF800000#32
abbrev zero : EReal := Ideal.ofBits .f32 0x00000000#32
/-- `cos m`, `sin m`, the threshold `cos (π − m)` and `sin (π − m)·m`, as rounded to f32. -/
abbrev cosM : EReal := Ideal.ofBits .f32 0x3F60A940#32
abbrev sinM : EReal := Ideal.ofBits .f32 0x3EF57744#32
abbrev thr : EReal := Ideal.ofBits .f32 0xBF60A940#32
abbrev mm : EReal := Ideal.ofBits .f32 0x3E757744#32
/-- The scale 64, the batch size 512, and the weights 0.01 and 0.99 of the running mean. -/
abbrev scale : EReal := Ideal.ofBits .f32 0x42800000#32
abbrev nB : EReal := Ideal.ofBits .f32 0x44000000#32
abbrev wNew : EReal := Ideal.ofBits .f32 0x3C23D70A#32
abbrev wOld : EReal := Ideal.ofBits .f32 0x3F7D70A4#32

/-! ## Scalars -/

/-- Clipping to `[-1, 1]`. -/
def clip (x : EReal) : EReal := min one (max negOne x)

/-- The squared Euclidean norm of column `j`. -/
def colSq (k : SDN.Idx → EReal) (j : Fin 100000) : EReal := ∑ d : Fin 512, k (ix2 d j) * k (ix2 d j)

/-- The raw dot product of row `b` of `e` with column `j` of `k`. -/
def dotCol (e : SBD.Idx → EReal) (k : SDN.Idx → EReal) (b : Fin 512) (j : Fin 100000) : EReal :=
  ∑ d : Fin 512, e (ix2 b d) * k (ix2 d j)

/-- A row divided by its Euclidean norm, entry by entry. -/
def rowUnit (x : SBD.Idx → EReal) : SBD.Idx → EReal := fun i =>
  Ideal.div (x i) (Ideal.sqrt (zero + ∑ d : Fin 512, x (ix2 (i 0) d) * x (ix2 (i 0) d)))

/-- The cosine as the reference computes it: each column entry divided by the column's norm, then the dot product. -/
def cosRef (e : SBD.Idx → EReal) (k : SDN.Idx → EReal) (b : Fin 512) (j : Fin 100000) : EReal :=
  clip (∑ d : Fin 512, e (ix2 b d) * Ideal.div (k (ix2 d j)) (Ideal.sqrt (zero + colSq k j)))

/-- The cosine as the kernel computes it: the raw dot product times the reciprocal square root of the squared norm. -/
def cosKer (e : SBD.Idx → EReal) (k : SDN.Idx → EReal) (b : Fin 512) (j : Fin 100000) : EReal :=
  clip (dotCol e k b j * Ideal.rsqrt (colSq k j))

/-- A row's target cosine as the kernel's host part computes it: the raw dot product divided by the norm. -/
def tlKer (e : SBD.Idx → EReal) (k : SDN.Idx → EReal) (b : Fin 512) (l : Fin 100000) : EReal :=
  clip (Ideal.div (zero + dotCol e k b l) (Ideal.sqrt (zero + colSq k l)))

/-- `sin θ` from `cos θ = tl`: the reference's, and the kernel's with its guard at zero. -/
def sinRef (tl : EReal) : EReal := Ideal.sqrt (one - tl * tl)
def sinKer (tl : EReal) : EReal := Ideal.sqrt (max (one - tl * tl) zero)

/-- The margin threshold `cos (θ + m)` from `cos θ` and `sin θ`. -/
def cosMargin (tl s : EReal) : EReal := tl * cosM - s * sinM

/-- The adjusted target: the threshold itself while `θ + m` stays below `π`, else a linear penalty. -/
def finalTarget (tl ctm : EReal) : EReal := Scalar.select (Ideal.cmp .ogt tl thr) ctm (tl - mm)

/-- The running mean after this batch, from the sum of the target cosines. -/
def newT (tlSum t : EReal) : EReal := wNew * Ideal.div tlSum nB + wOld * t

/-- A non-target logit before scaling (the reference's), and scaled inside the products (the kernel's). -/
def hardRef (c ctm nt : EReal) : EReal := Scalar.select (Ideal.cmp .ogt c ctm) (c * (nt + c)) c
def hardKer (c ctm nt : EReal) : EReal := Scalar.select (Ideal.cmp .ogt c ctm) (c * scale * (nt + c)) (c * scale)

/-- A label word read as a class index (meaningful when the word is below `100000`). -/
def labIx (l : BitVec 32) : Fin 100000 := ⟨l.toNat % 100000, Nat.mod_lt _ (by decide)⟩

/-! ## The two results -/

section
variable (x : SBD.Idx → EReal) (lab : Fin 512 → BitVec 32) (k : SDN.Idx → EReal) (t : EReal)

/-- The reference's target cosine, threshold, adjusted target and running mean. -/
def tlR (b : Fin 512) : EReal := cosRef (rowUnit x) k b (labIx (lab b))
def ctmR (b : Fin 512) : EReal := cosMargin (tlR x lab k b) (sinRef (tlR x lab k b))
def ftlR (b : Fin 512) : EReal := finalTarget (tlR x lab k b) (ctmR x lab k b)
def ntR : EReal := newT (zero + ∑ b : Fin 512, tlR x lab k b) t

/-- The reference's result at row `b`, column `j`. -/
def outRef (b : Fin 512) (j : Fin 100000) : EReal :=
  (if j = labIx (lab b) then ftlR x lab k b else hardRef (cosRef (rowUnit x) k b j) (ctmR x lab k b) (ntR x lab k t)) * scale

/-- The kernel's target cosine, threshold, adjusted and scaled target, and running mean. -/
def tlK (b : Fin 512) : EReal := tlKer (rowUnit x) k b (labIx (lab b))
def ctmK (b : Fin 512) : EReal := cosMargin (tlK x lab k b) (sinKer (tlK x lab k b))
def ftlK (b : Fin 512) : EReal := finalTarget (tlK x lab k b) (ctmK x lab k b) * scale
def ntK : EReal := newT (zero + ∑ b : Fin 512, tlK x lab k b) t

end

/-- What one grid point computes for row `b` and column `q` of its tile, from the tile `v` of the class matrix, the
    normalised embeddings `e`, and per row the label word, the threshold and the scaled target; `p` is the tile's number. -/
def tileOut (v : STile.Idx → EReal) (e : SBD.Idx → EReal) (lab : Fin 512 → BitVec 32) (ctm ftl : Fin 512 → EReal) (nt : EReal)
    (p : Nat) (b : Fin 512) (q : Fin 2048) : EReal :=
  Scalar.select (IntOp.cmpi .eq (lab b) (BitVec.ofNat 32 (p * 2048 + q.val))) (ftl b)
    (hardKer (clip ((∑ d : Fin 512, e (ix2 b d) * v (ix2 d q)) * Ideal.rsqrt (∑ d : Fin 512, v (ix2 d q) * v (ix2 d q))))
      (ctm b) nt)

/-- The kernel's result at row `b`, column `j`. -/
def outKer (x : SBD.Idx → EReal) (lab : Fin 512 → BitVec 32) (k : SDN.Idx → EReal) (t : EReal) (b : Fin 512) (j : Fin 100000) : EReal :=
  Scalar.select (IntOp.cmpi .eq (lab b) (BitVec.ofNat 32 j.val)) (ftlK x lab k b)
    (hardKer (cosKer (rowUnit x) k b j) (ctmK x lab k b) (ntK x lab k t))

end Cert.Margin

end
-- ==== Proof.PayloadAt.lean ====
/-
  The body's one payload read at a row and a column of its tile, at the ideal values.
-/
import proofs.«422900_j39505109189162_2_alg».proof.Proof.Gen.KernelIdeal.Skeleton
import proofs.«422900_j39505109189162_2_alg».proof.Proof.Spec
import Idealize.ShloMosaic.PureOps.Ideal.Laws
import Idealize.ShloMosaic.Lib.Pipeline.Value
import Idealize.ShloMosaic.Lib.ValueLayout

noncomputable section

namespace Cert.KernelIdeal.PayAt

open Cert.KernelIdeal Cert.KernelIdeal.Gen Cert.Margin
open Idealize.ShloMosaic Idealize.ShloMosaic.ValueIdx

/-! ## The operations that are not pointwise, each read at a row and a column -/

/-- The sum over the rows, read at a column: the sum of that column's entries. -/
theorem lane_sum_at (v5 : FVec Ideal S512x2048 .f32) (h : S512x2048.Reduces [0] S2048) (hφ : FKind.Formats .f32)
    (hacc : (0x00000000#32 : BitVec 32) = 0x00000000#32) (q : Fin 2048) :
    multiReduction (F := Ideal) .add [0] S2048 v5 0x00000000#32 h hφ hacc (ix1 q)
      = ∑ d : Fin 512, v5 (ix2 d q) := by
  refine (Ideal.multiReduction_add_single v5 0x00000000#32 h hφ hacc (ix1 q)).trans ?_
  refine Finset.sum_congr rfl fun d _ => congrArg v5 ?_
  funext a
  match a with
  | ⟨0, _⟩ => rfl
  | ⟨1, _⟩ => rfl

/-- A vector of 2048 entries viewed as one row: the row's entry at column `q` is the vector's entry `q`. -/
theorem cast_row_at {α : Type} (v6 : S2048.Idx → α) (h : S2048.ShapeCasts S1x2048) (z : Fin 1) (q : Fin 2048) :
    shapeCast S1x2048 v6 h (ix2 z q) = v6 (ix1 q) := by
  refine (shapeCast_addUnit_apply ![2048] v6 h (ix2 z q)).trans ?_
  refine congrArg v6 ?_
  funext a
  match a with
  | ⟨0, _⟩ => rfl

/-- One row repeated down the tile: every row reads the row's entry at its column. -/
theorem bcast_row_at {α : Type} (v : S1x2048.Idx → α) (h : S1x2048.Broadcasts S512x2048) (b : Fin 512) (q : Fin 2048) :
    broadcastTo S512x2048 v h (ix2 b q) = v (ix2 0 q) :=
  broadcastTo_apply v h (ix2 b q) (ix2 0 q) (fun a => match a with
    | ⟨0, _⟩ => by show 0 = if (1 : Nat) = 1 then 0 else b.val; rw [if_pos rfl]
    | ⟨1, _⟩ => by show q.val = if (2048 : Nat) = 1 then 0 else q.val; rw [if_neg (by decide)])

/-- One column repeated across the tile: every column reads the column's entry at its row. -/
theorem bcast_col_at {α : Type} (v : S512x1.Idx → α) (h : S512x1.Broadcasts S512x2048) (b : Fin 512) (q : Fin 2048) :
    broadcastTo S512x2048 v h (ix2 b q) = v (ix2 b 0) :=
  broadcastTo_apply v h (ix2 b q) (ix2 b 0) (fun a => match a with
    | ⟨0, _⟩ => by show b.val = if (512 : Nat) = 1 then 0 else b.val; rw [if_neg (by decide)]
    | ⟨1, _⟩ => by show 0 = if (1 : Nat) = 1 then 0 else q.val; rw [if_pos rfl])

/-- A single entry repeated over the tile. -/
theorem bcast_one_at {α : Type} (v : S1x1.Idx → α) (h : S1x1.Broadcasts S512x2048) (b : Fin 512) (q : Fin 2048) :
    broadcastTo S512x2048 v h (ix2 b q) = v (ix2 0 0) :=
  broadcastTo_apply v h (ix2 b q) (ix2 0 0) (fun a => match a with
    | ⟨0, _⟩ => by show 0 = if (1 : Nat) = 1 then 0 else b.val; rw [if_pos rfl]
    | ⟨1, _⟩ => by show 0 = if (1 : Nat) = 1 then 0 else q.val; rw [if_pos rfl])

/-- The column counter of the tile reads, at column `q`, the word of `q`. -/
theorem iota_at (h : S1x2048.Iotas .tc 32 [1]) (z : Fin 1) (q : Fin 2048) :
    iota .tc S1x2048 32 [1] h (ix2 z q) = BitVec.ofNat 32 q.val :=
  iota_single_apply .tc S1x2048 32 1 h (ix2 z q)

/-! ## The product of the embeddings with the tile -/

theorem mm_lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem mm_lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem mm_rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem mm_rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product onto a zero accumulator, read at a row and a column: the dot product of the row with the column. -/
theorem matmul_at (x : FVec Ideal S512x512 .bf16) (y : FVec Ideal S512x2048 .bf16) (b : Fin 512) (q : Fin 2048) :
    matmul dot_S512x512_S512x2048_S512x2048_1_0_0_1_n_n none x y (constant (F := Ideal) S512x2048 .f32 0x00000000#32) (ix2 b q)
      = ∑ d : Fin 512, x (ix2 b d) * y (ix2 d q) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 b q) ((ValueIdx.contrEquiv1 dot_S512x512_S512x2048_S512x2048_1_0_0_1_n_n 512 rfl rfl).symm k) = ix2 b k := funext fun a => Fin.ext (by
    match a with
    | ⟨0, _⟩ => exact mm_lhs_0 _ _
    | ⟨1, _⟩ => exact (mm_lhs_1 _ _).trans hk)
  have er : dot_S512x512_S512x2048_S512x2048_1_0_0_1_n_n.rhsIdx (ix2 b q) ((ValueIdx.contrEquiv1 dot_S512x512_S512x2048_S512x2048_1_0_0_1_n_n 512 rfl rfl).symm k) = ix2 k q := funext fun a => Fin.ext (by
    match a with
    | ⟨0, _⟩ => exact (mm_rhs_0 _ _).trans hk
    | ⟨1, _⟩ => exact mm_rhs_1 _ _)
  rw [el, er]

/-! ## The column's word -/

/-- The tile's number times the tile's width plus the column, computed on 32-bit words, is the word of that number. -/
theorem col_word (p q : Nat) :
    IntOp.addi (Scalar.muli (BitVec.ofNat 32 p) 2048#32) (BitVec.ofNat 32 q) = BitVec.ofNat 32 (p * 2048 + q) := by
  show BitVec.ofNat 32 p * 2048#32 + BitVec.ofNat 32 q = _
  rw [BitVec.ofNat_add, BitVec.ofNat_mul]

/-! ## The pointwise operations at an index -/

theorem cmpi_at {s : Shape} {w : Nat} (p : CmpIPredicate) (x y : IVec s w) (i : s.Idx) : cmpi p x y i = IntOp.cmpi p (x i) (y i) := rfl
theorem addi_at {s : Shape} {w : Nat} (x y : IVec s w) (i : s.Idx) : addi x y i = IntOp.addi (x i) (y i) := rfl
theorem rsqrt_at {s : Shape} {φ : FTy} (x : FVec Ideal s φ) (i : s.Idx) : rsqrt x i = Ideal.rsqrt (x i) := rfl
theorem cmpf_at {s : Shape} {φ : FTy} (p : CmpFPredicate) (x y : FVec Ideal s φ) (i : s.Idx) : cmpf p x y i = Ideal.cmp p (x i) (y i) := rfl

/-! ## The payload -/

/-- At row `b` and column `q` of its tile the payload is: the row's adjusted target where the row's label is the
    column's number `p·2048 + q`; elsewhere the clipped cosine of the row against the column — the dot product times the
    reciprocal square root of the column's sum of squares —, re-weighted above the row's threshold, times 64. -/
theorem pay_at (i : grid0.Coords) (v4 : S512x2048.Idx → EReal) (v9 : S512x512.Idx → EReal) (v19 : S512x1.Idx → EReal)
    (v23 : S1x1.Idx → EReal) (v31 : S512x1.Idx → BitVec 32) (v36 : S512x1.Idx → EReal) (b : Fin 512) (q : Fin 2048) :
    k0_pay1 (F := Ideal) i v4 v9 v19 v23 v31 v36 (ix2 b q)
      = tileOut v4 v9 (fun b => v31 (ix2 b 0)) (fun b => v19 (ix2 b 0)) (fun b => v36 (ix2 b 0)) (v23 (ix2 0 0)) (i 0).val b q := by
  unfold Gen.k0_pay1
  simp only [select_apply, cmpi_at, cmpf_at, addi_at, rsqrt_at, mulf_apply, addf_apply, maximumf_apply, minimumf_apply,
    broadcast_apply, shapeCast_self, bcast_row_at, bcast_col_at, bcast_one_at, cast_row_at, matmul_at, truncf_apply]
  rw [iota_at, lane_sum_at, col_word]
  simp only [mulf_apply, Ideal.ofBits_def]
  rfl

/-- A column of the payload depends on that column of the tile only. -/
theorem pay_col_local (i : grid0.Coords) (v4 v4' : S512x2048.Idx → EReal) (v9 : S512x512.Idx → EReal) (v19 : S512x1.Idx → EReal)
    (v23 : S1x1.Idx → EReal) (v31 : S512x1.Idx → BitVec 32) (v36 : S512x1.Idx → EReal) (b : Fin 512) (q : Fin 2048)
    (h : ∀ d : Fin 512, v4 (ix2 d q) = v4' (ix2 d q)) :
    k0_pay1 (F := Ideal) i v4 v9 v19 v23 v31 v36 (ix2 b q) = k0_pay1 (F := Ideal) i v4' v9 v19 v23 v31 v36 (ix2 b q) := by
  rw [pay_at, pay_at]
  unfold tileOut
  simp only [h]

end Cert.KernelIdeal.PayAt

end
-- ==== Proof.KernelFrame.lean ====
/-
  The idealized kernel program's run: the body's triple, the body obligation of the proof data, and the launch.
-/
import proofs.«422900_j39505109189162_2_alg».proof.Proof.KernelData
import proofs.«422900_j39505109189162_2_alg».proof.Proof.PayloadAt
import Idealize.ShloMosaic.Lib.Pipeline.Kit
import Idealize.ShloMosaic.Lib.Pipeline.Value
import Idealize.ShloMosaic.Lib.Tactic

noncomputable section

namespace Cert.KernelIdeal.Run

open Cert.KernelIdeal Cert.KernelIdeal.Gen Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

/-- The whole-buffer rectangle's offsets are zero. -/
theorem off0 : (![0, 0] : Fin 2 → ℕ) = fun _ => 0 := funext fun a => by fin_cases a <;> rfl

/-- One piece whose rectangle is everything covers. -/
theorem cover_one {Val : EltTy → Type} {S : Shape} {e : EltTy} (r : Rect S) (w : r.shape.Idx → Val e) (hr : ∀ y, y ∈ r.set) (y : S.Idx) :
    ∃ p ∈ ([⟨r, w⟩] : List (View.Piece Val S e)), y ∈ p.1.set :=
  ⟨⟨r, w⟩, List.mem_singleton_self _, hr y⟩

/-- One store through the whole-shape rectangle at zero offsets, read back, is its payload. -/
theorem read_writes_unit_zero {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) :
    v.read Val (v.writes Val f [⟨Rect.unit off S.size inb, w⟩]) = w :=
  (View.read_writes_eq_canon v f _ (cover_one _ w (View.mem_set_unit_zero h inb))).trans (View.canon_unit_zero h inb w)

/-- The kernel body on whole staging memrefs holding `x1` … `x6` (the last one anything): six whole loads, the
    payload of what they read, a whole store. The six buffers read are left as they were and the seventh holds
    the payload. -/
theorem sound_kernel (c : Dev nD) (E : Set ℕ) (i : grid0.Coords)
    (arg1 : Memref sig .tc .vmem S512x512 .bf16) (harg1 : arg1.IsWhole)
    (arg2 : Memref sig .tc .vmem S512x2048 .f32) (harg2 : arg2.IsWhole)
    (arg3 : Memref sig .tc .vmem S512x1 .i32) (harg3 : arg3.IsWhole)
    (arg4 : Memref sig .tc .vmem S512x1 .f32) (harg4 : arg4.IsWhole)
    (arg5 : Memref sig .tc .vmem S512x1 .f32) (harg5 : arg5.IsWhole)
    (arg6 : Memref sig .tc .vmem S1x1 .f32) (harg6 : arg6.IsWhole)
    (arg7 : Memref sig .tc .vmem S512x2048 .f32) (harg7 : arg7.IsWhole)
    (x1 : Vec F S512x512 .bf16) (x2 : Vec F S512x2048 .f32) (x3 : Vec F S512x1 .i32) (x4 : Vec F S512x1 .f32)
    (x5 : Vec F S512x1 .f32) (x6 : Vec F S1x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (k0_pay1 i x2 x1 x4 x6 x3 x5)) -∗ K ⟨⟩))
      ⊢ wp frame (wpE (defs₀ (F := F)) Variants.none c none) E
          (cc0__masked_kernel i arg1 harg1 arg2 harg2 arg3 harg3 arg4 harg4 arg5 harg5 arg6 harg6 arg7 harg7) K := by
  simp only [cc0__masked_kernel_eq_skeleton]; unfold cc0__masked_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_writes_unit_zero _ _ off0 _ _).trans ?_
  simp only [View.readAt_eq_ld, View.ld_unit_zero (S := S512x2048) off0, View.ld_unit_zero (S := S512x512) off0,
    View.ld_unit_zero (S := S512x1) off0, View.ld_unit_zero (S := S1x1) off0]

/-! ## The proof data, window by window -/

section Data

variable (m : (ℓ : Loc nD τ sig) → Buf (Elt Ideal) ℓ) (ρ : Dev nD → PrngReg)

local notation "𝕀" => MT nD τ sig Unit (Elt Ideal) ℕ (UR sig nD τ) ℕ

/-- The proof data's arrays are the arrays as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = tileAt m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each resident input's staging buffer holds its whole array at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The class-matrix tile is fetched at every point: its buffer holds the tile's columns inside the matrix, and past
    the matrix's last column whatever the buffer held, `d`. -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- The output tile is written back at every point: its buffer holds nothing the body may read. -/
theorem before0_6 (c : Dev nD) (t : Fin cfg0.N) (d) : (dats m 0 c).before 6 t d = d :=
  (dats m 0 c).before_out_reset 6 rfl t (by
    by_cases h : t.val = 0
    · exact .inl h
    · exact .inr ⟨h, flush0_6 _⟩) d

/-! ## The columns inside the matrix do not see what lies past its end -/

/-- The tile's window is never cut along the rows. -/
theorem xsize1_rows (i : grid0.Coords) : win0_1.xsize i 0 = 512 := rfl

/-- Two tiles that agree on the columns inside the matrix give output tiles that agree there: a column of the payload
    reads that column of the tile only, a column of the output's part inside the matrix is a column of the tile's part
    inside the matrix (the two windows are cut alike), and there the tile is the fetched block whatever fills it out. -/
theorem cut_pay_fill (i : grid0.Coords) (d d' : S512x2048.Idx → EReal) (g : (win0_1.xblock i).Idx → EReal)
    (v9 : S512x512.Idx → EReal) (v19 : S512x1.Idx → EReal) (v23 : S1x1.Idx → EReal) (v31 : S512x1.Idx → BitVec 32)
    (v36 : S512x1.Idx → EReal) :
    win0_6.cut i (k0_pay1 (F := Ideal) i (win0_1.fill i d g) v9 v19 v23 v31 v36)
      = win0_6.cut i (k0_pay1 (F := Ideal) i (win0_1.fill i d' g) v9 v19 v23 v31 v36) := by
  funext j
  have hq : (j 1).val < win0_1.xsize i 1 := (j 1).isLt
  obtain ⟨b, q, hbq, hqv⟩ : ∃ (b : Fin 512) (q : Fin 2048), win0_6.xinj i j = ValueIdx.ix2 b q ∧ q.val = (j 1).val :=
    ⟨win0_6.xinj i j 0, win0_6.xinj i j 1, ValueIdx.eq_ix2 _, rfl⟩
  show k0_pay1 (F := Ideal) i (win0_1.fill i d g) v9 v19 v23 v31 v36 (win0_6.xinj i j)
    = k0_pay1 (F := Ideal) i (win0_1.fill i d' g) v9 v19 v23 v31 v36 (win0_6.xinj i j)
  rw [hbq]
  refine PayAt.pay_col_local i _ _ v9 v19 v23 v31 v36 b q fun r => ?_
  have hm : win0_1.moved i (ValueIdx.ix2 r q) = true := (win0_1.moved_iff i _).mpr fun a => by
    match a with
    | ⟨0, _⟩ => exact lt_of_lt_of_eq r.isLt (xsize1_rows i).symm
    | ⟨1, _⟩ => exact lt_of_eq_of_lt hqv hq
  unfold Window.fill; rw [dif_pos hm, dif_pos hm]

/-- The output tile's part inside the matrix is the proof data's whatever the tile's buffer held past the matrix's end:
    filling the proof data's part back into the tile the body computed changes nothing. -/
theorem fill_out (c : Dev nD) (t : Fin cfg0.N) (d1 : S512x2048.Idx → EReal) :
    win0_6.fill (grid0.coords t)
        (k0_pay1 (F := Ideal) (grid0.coords t) (win0_1.fill (grid0.coords t) d1 (iblk m c 1 t)) (iblk m c 0 t) (iblk m c 3 t)
          (iblk m c 5 t) (iblk m c 2 t) (iblk m c 4 t))
        (win0_6.cut (grid0.coords t) (outAt m c t))
      = k0_pay1 (F := Ideal) (grid0.coords t) (win0_1.fill (grid0.coords t) d1 (iblk m c 1 t)) (iblk m c 0 t) (iblk m c 3 t)
          (iblk m c 5 t) (iblk m c 2 t) (iblk m c 4 t) :=
  win0_6.fill_congr_cut _ (cut_pay_fill (grid0.coords t) d1 (fun _ => (0 : EReal)) (iblk m c 1 t) (iblk m c 0 t) (iblk m c 3 t)
    (iblk m c 5 t) (iblk m c 2 t) (iblk m c 4 t))

/-! ## The body obligation, at a generic point -/

/-- What the body is called with at point `t`, the windows one by one, -/
def bodyPre (c : Dev nD) (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the tile's and the output's buffers stated on their parts inside the matrix only. -/
def bodyPost (c : Dev nD) (t : Fin cfg0.N) : sProp 𝕀 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare
        (win0_6.fill (grid0.coords t) d (win0_6.cut (grid0.coords t) ((dats m 0 c).after 6 t)))))

/-- The body at any point: the resident buffers hold their arrays, the tile's buffer the fetched tile filled out with
    anything, so the body's triple applies; the tile's buffer is handed back as it was, and the output's holds the
    payload, which inside the matrix is the proof data's. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (iblk m c 0 t) (win0_1.fill (grid0.coords t) d1 (iblk m c 1 t)) (iblk m c 2 t) (iblk m c 3 t) (iblk m c 4 t)
    (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show win0_1.cut (grid0.coords t) (tileAt m c t) = iblk m c 1 t from win0_1.cut_fill _ _ _]
    iexact H1
  isplitl [H2]; · iexact H2
  isplitl [H3]; · iexact H3
  isplitl [H4]; · iexact H4
  isplitl [H5]; · iexact H5
  iexists _
  rw [fill_out m c t d1]
  iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program terminates; every array of the pipeline ends at what the proof data computes,
    every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Data

end Cert.KernelIdeal.Run

end
-- ==== Proof.HostTarget.lean ====
/-
  The kernel program's host part up to each row's target cosine, read at an index: the normalised embeddings it hands the
  kernel, the label column, and the clipped quotient of the raw dot product by the gathered column's norm.
-/
import proofs.«422900_j39505109189162_2_alg».proof.Proof.KernelData
import proofs.«422900_j39505109189162_2_alg».proof.Proof.Spec
import Idealize.ShloMosaic.PureOps.Ideal.Laws
import Idealize.ShloMosaic.Lib.Pipeline.Value
import Idealize.ShloMosaic.Lib.ValueLayout
import Idealize.ShloMosaic.Lib.StableHlo.Run

noncomputable section

namespace Cert.KernelIdeal.HostAt

open Cert.KernelIdeal Cert.KernelIdeal.Gen Cert.KernelIdeal.Data Cert.Margin
open Idealize.ShloMosaic Idealize.ShloMosaic.TcCoe Idealize.SL.Sem Idealize.ShloMosaic.ValueIdx

variable (m : (ℓ : Loc nD τ sig) → Buf (Elt Ideal) ℓ) (c : Dev nD)

/-! ## The host operations' terms, as functions of the argument arrays -/

/-- The gather's dimension numbers: whole columns of the class matrix, the start index naming the column. -/
abbrev GK : GatherDims S512x100000 S512x1 S512x512 := gather_S512x100000_S512x1_S512x512_0_1_n_n_1_1_5121

/-- Each row's sum, from zero. -/
def hRowSum (y : FVec Ideal S512x512 .f32) : FVec Ideal S512 .f32 :=
  Host.reduceAdd (F := Ideal) y (constant (F := Ideal) S_ .f32 0x00000000#32) reducesTo_S512x512_S512_d1 h_S_

/-- The rows' Euclidean norms as a column: the square root of each row's sum of squares. -/
def hNormCol (x : FVec Ideal S512x512 .f32) : FVec Ideal S512x1 .f32 :=
  Host.sqrt (F := Ideal) (broadcastInDim (s := S512) S512x1 ![0] bcast_S512_S512x1_0 (hRowSum (mulf (F := Ideal) x x)))

/-- Every entry divided by its row's norm. -/
def hUnit (x : FVec Ideal S512x512 .f32) : FVec Ideal S512x512 .f32 :=
  Host.divf (F := Ideal) x (broadcastInDim (s := S512x1) S512x512 ![0, 1] bcast_S512x1_S512x512_0_1 (hNormCol x))

/-- The label words, a negative one moved up by the number of classes. -/
def hLab (lab : IVec S512 32) : IVec S512 32 :=
  select (cmpi .slt lab (broadcastInDim (s := S_) S512 ![] bcast_S_S512 (constantI S_ 32 0#32)))
    (addi lab (broadcastInDim (s := S_) S512 ![] bcast_S_S512 (constantI S_ 32 100000#32))) lab

/-- The matrix whose entry `(b, d)` is the class matrix's entry `(d, label b)`: the labels' columns gathered, then transposed. -/
def hCols (k : FVec Ideal S512x100000 .f32) (lab : IVec S512 32) : FVec Ideal S512x512 .f32 :=
  transpose S512x512 [1, 0]
    (Host.gather GK k (broadcastInDim (s := S512) S512x1 ![0] bcast_S512_S512x1_0 (hLab lab))) transposes_S512x512_S512x512_1_0

/-- Each row's target cosine: the row's dot product with its label's column, over that column's norm, clipped to `[-1, 1]`. -/
def hTarget (x : FVec Ideal S512x512 .f32) (k : FVec Ideal S512x100000 .f32) (lab : IVec S512 32) : FVec Ideal S512 .f32 :=
  minimumf (F := Ideal) (broadcastInDim (s := S_) S512 ![] bcast_S_S512 (id (constant (F := Ideal) S_ .f32 0x3F800000#32)))
    (maximumf (F := Ideal) (broadcastInDim (s := S_) S512 ![] bcast_S_S512 (id (constant (F := Ideal) S_ .f32 0xBF800000#32)))
      (Host.divf (F := Ideal) (hRowSum (mulf (F := Ideal) (hUnit x) (hCols k lab)))
        (Host.sqrt (F := Ideal) (hRowSum (mulf (F := Ideal) (hCols k lab) (hCols k lab))))))

/-! ## What the region finds in the three buffers, as those terms -/

theorem v39_eq : (V m c main_v39 : S512x512.Idx → EReal) = truncf (F := Ideal) .bf16 (hUnit (argX m c)) bitsLt_bf16_f32 := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  simp only [StableHlo.TRef.ofBuf, StableHlo.TRef.toBuf, cast_eq]
  rfl

theorem v40_eq : (V m c main_v40 : S512x1.Idx → BitVec 32)
    = shapeCast S512x1 (m ((c.tc : Thread nD τ).loc main_arg1) : S512.Idx → BitVec 32) shapeCasts_S512_S512x1 := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  rfl

theorem v17_eq : (V m c main_v17 : S512.Idx → EReal)
    = hTarget (argX m c) (argK m c) (m ((c.tc : Thread nD τ).loc main_arg1) : S512.Idx → BitVec 32) := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  simp only [StableHlo.TRef.ofBuf, StableHlo.TRef.toBuf, cast_eq]
  rfl

/-! ## The layout operations read at an index -/

/-- A vector set as a column reads its entry at the row. -/
theorem col_at {α : Type} (z : S512.Idx → α) (b : Fin 512) :
    broadcastInDim (s := S512) S512x1 ![0] bcast_S512_S512x1_0 z (ix2 b 0) = z (ix1 b) :=
  broadcastInDim_apply _ bcast_S512_S512x1_0 z (ix2 b 0) (ix1 b) (fun a => match a with
    | ⟨0, _⟩ => by show b.val = if (512 : Nat) = 1 then 0 else b.val; rw [if_neg (by decide)])

/-- A column spread along the rows reads its entry at the row. -/
theorem spread_at {α : Type} (z : S512x1.Idx → α) (b d : Fin 512) :
    broadcastInDim (s := S512x1) S512x512 ![0, 1] bcast_S512x1_S512x512_0_1 z (ix2 b d) = z (ix2 b 0) :=
  broadcastInDim_apply _ bcast_S512x1_S512x512_0_1 z (ix2 b d) (ix2 b 0) (fun a => match a with
    | ⟨0, _⟩ => by show b.val = if (512 : Nat) = 1 then 0 else b.val; rw [if_neg (by decide)]
    | ⟨1, _⟩ => by show 0 = if (1 : Nat) = 1 then 0 else d.val; rw [if_pos rfl])

/-- The transpose reads the mirrored entry. -/
theorem transpose_at {α : Type} (y : S512x512.Idx → α) (b d : Fin 512) :
    transpose S512x512 [1, 0] y transposes_S512x512_S512x512_1_0 (ix2 b d) = y (ix2 d b) :=
  transpose_apply [1, 0] y transposes_S512x512_S512x512_1_0 (ix2 b d) (ix2 d b) (fun a => match a with
    | ⟨0, _⟩ => rfl
    | ⟨1, _⟩ => rfl)

/-- The label vector reshaped to a column reads the label at the row. -/
theorem reshape_at {α : Type} (z : S512.Idx → α) (b : Fin 512) :
    shapeCast S512x1 z shapeCasts_S512_S512x1 (ix2 b 0) = z (ix1 b) :=
  shapeCast_apply z shapeCasts_S512_S512x1 (ix2 b 0) (ix1 b)
    (by rewrite [Shape.rowMajor_val_one, Shape.rowMajor_val_two]; show b.val = b.val * 1 + 0; omega)

/-- The gather of whole columns read at an entry: row `d` of the column the start index names, the index read signed and
    clamped to the last column. -/
theorem gatherCol_at {α : Type} (k : S512x100000.Idx → α) (idx : IVec S512x1 32) (d b : Fin 512) :
    Host.gather GK k idx (ix2 d b) = k (ix2 d ⟨min (idx (ix2 b 0)).toInt.toNat 99999, by omega⟩) := by
  unfold Host.gather
  refine congrArg k (funext fun a => Fin.ext ?_)
  match a with
  | ⟨0, _⟩ =>
    show GK.start (ix2 d b) idx 0 + GK.batchCoord (ix2 d b) 0 + GK.offCoord (ix2 d b) 0 = d.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GK.start (ix2 d b) idx 1 + GK.batchCoord (ix2 d b) 1 + GK.offCoord (ix2 d b) 1 = min (idx (ix2 b 0)).toInt.toNat 99999
    rw [GatherDims.batchCoord_eq_zero _ _ _ List.not_mem_nil, GatherDims.offCoord_eq_zero _ _ _ (by decide)]
    simp only [Nat.add_zero]
    unfold GatherDims.start
    rw [dif_pos (by decide)]
    have hsi : GK.siIdx (ix2 d b) ⟨List.idxOf (1 : Fin S512x100000.rank) GK.startIndexMap, List.idxOf_lt_length_iff.2 (by decide)⟩
        = ix2 b 0 := by
      funext e; refine Fin.ext ?_
      match e with
      | ⟨0, _⟩ => rfl
      | ⟨1, _⟩ => rfl
    rw [hsi]
    rfl

/-! ## Label words below the number of classes -/

/-- Such a word is not negative as a signed word: the wrap-around leaves it. -/
theorem wrap_small (l : BitVec 32) (h : l.toNat < 100000) :
    Scalar.select (IntOp.cmpi .slt l 0#32) (IntOp.addi l 100000#32) l = l := by
  have hti : l.toInt = l.toNat := BitVec.toInt_eq_toNat_of_lt (by omega)
  have h0 : IntOp.cmpi .slt l 0#32 = 0#1 := by
    unfold IntOp.cmpi
    simp only [BitVec.slt, hti, BitVec.toInt_zero]
    have : ¬ ((l.toNat : Int) < 0) := by omega
    simp [this]
  rw [h0]; exact select_zero _ _

/-- Read signed and clamped to the last column it is the class index it names. -/
theorem clampIx_small (l : BitVec 32) (h : l.toNat < 100000) : min l.toInt.toNat 99999 = (labIx l).val := by
  have hti : l.toInt = l.toNat := BitVec.toInt_eq_toNat_of_lt (by omega)
  show min l.toInt.toNat 99999 = l.toNat % 100000
  rw [hti, Int.toNat_natCast, Nat.mod_eq_of_lt h]; omega

/-! ## The terms read at an index -/

/-- A row's sum is zero plus the sum of the row's entries. -/
theorem hRowSum_at (y : FVec Ideal S512x512 .f32) (b : Fin 512) : hRowSum y (ix1 b) = zero + ∑ d : Fin 512, y (ix2 b d) := by
  unfold hRowSum
  simp only [Host.reduceAdd, Ideal.hostReduceAdd_def]
  rw [Ideal.hostReduceAdd_single reducesTo_S512x512_S512_d1 (by decide)]
  refine congrArg (_ + ·) (Finset.sum_congr rfl fun k _ => ?_)
  exact congrArg y (funext fun a => Fin.ext (by match a with | ⟨0, _⟩ => rfl | ⟨1, _⟩ => rfl))

theorem hNormCol_at (x : FVec Ideal S512x512 .f32) (b : Fin 512) :
    hNormCol x (ix2 b 0) = Ideal.sqrt (zero + ∑ d : Fin 512, x (ix2 b d) * x (ix2 b d)) := by
  unfold hNormCol
  generalize hy : mulf (F := Ideal) x x = y
  show Ideal.sqrt (broadcastInDim (s := S512) S512x1 ![0] bcast_S512_S512x1_0 (hRowSum y) (ix2 b 0)) = _
  rw [col_at, hRowSum_at, ← hy]
  rfl

theorem hUnit_at (x : FVec Ideal S512x512 .f32) (b d : Fin 512) : hUnit x (ix2 b d) = rowUnit x (ix2 b d) := by
  unfold hUnit rowUnit
  show Ideal.div (x (ix2 b d)) (broadcastInDim (s := S512x1) S512x512 ![0, 1] bcast_S512x1_S512x512_0_1 (hNormCol x) (ix2 b d)) = _
  rw [spread_at, hNormCol_at]

theorem hLab_at (lab : IVec S512 32) (b : Fin 512) (h : (lab (ix1 b)).toNat < 100000) : hLab lab (ix1 b) = lab (ix1 b) :=
  wrap_small (lab (ix1 b)) h

theorem hCols_at (k : FVec Ideal S512x100000 .f32) (lab : IVec S512 32) (b d : Fin 512) (h : (lab (ix1 b)).toNat < 100000) :
    hCols k lab (ix2 b d) = k (ix2 d (labIx (lab (ix1 b)))) := by
  unfold hCols
  rw [transpose_at, gatherCol_at]
  refine congrArg (fun j => k (ix2 d j)) (Fin.ext ?_)
  show min (broadcastInDim (s := S512) S512x1 ![0] bcast_S512_S512x1_0 (hLab lab) (ix2 b 0)).toInt.toNat 99999 = _
  rw [col_at, hLab_at lab b h]
  exact clampIx_small _ h

theorem hTarget_at (x : FVec Ideal S512x512 .f32) (k : FVec Ideal S512x100000 .f32) (lab : IVec S512 32)
    (hlab : ∀ b, (lab (ix1 b)).toNat < 100000) (b : Fin 512) :
    hTarget x k lab (ix1 b) = tlK x (fun b => lab (ix1 b)) k b := by
  unfold hTarget tlK tlKer clip dotCol colSq
  generalize hp : mulf (F := Ideal) (hUnit x) (hCols k lab) = p
  generalize hq : mulf (F := Ideal) (hCols k lab) (hCols k lab) = q
  show min one (max negOne (Ideal.div (hRowSum p (ix1 b)) (Ideal.sqrt (hRowSum q (ix1 b))))) = _
  rw [hRowSum_at, hRowSum_at, ← hp, ← hq]
  have e1 : ∀ d : Fin 512, mulf (F := Ideal) (hUnit x) (hCols k lab) (ix2 b d)
      = rowUnit x (ix2 b d) * k (ix2 d (labIx (lab (ix1 b)))) := fun d => by
    show hUnit x (ix2 b d) * hCols k lab (ix2 b d) = _
    rw [hUnit_at, hCols_at k lab b d (hlab b)]
  have e2 : ∀ d : Fin 512, mulf (F := Ideal) (hCols k lab) (hCols k lab) (ix2 b d)
      = k (ix2 d (labIx (lab (ix1 b)))) * k (ix2 d (labIx (lab (ix1 b)))) := fun d => by
    show hCols k lab (ix2 b d) * hCols k lab (ix2 b d) = _
    rw [hCols_at k lab b d (hlab b)]
  rw [Finset.sum_congr rfl fun d _ => e1 d, Finset.sum_congr rfl fun d _ => e2 d]

/-! ## The three buffers at an index -/

theorem v39_at (b d : Fin 512) : (V m c main_v39 : S512x512.Idx → EReal) (ix2 b d) = rowUnit (argX m c) (ix2 b d) := by
  rw [v39_eq]
  exact hUnit_at (argX m c) b d

theorem v40_at (b : Fin 512) : (V m c main_v40 : S512x1.Idx → BitVec 32) (ix2 b 0) = argLab m c b := by
  rw [v40_eq]
  exact reshape_at _ b

theorem v17_at (hlab : ∀ b, (argLab m c b).toNat < 100000) (b : Fin 512) :
    (V m c main_v17 : S512.Idx → EReal) (ix1 b) = tlK (argX m c) (argLab m c) (argK m c) b := by
  rw [v17_eq]
  exact hTarget_at (argX m c) (argK m c) _ hlab b

end Cert.KernelIdeal.HostAt

end
-- ==== Proof.HostCols.lean ====
/-
  The rest of the kernel program's host part read at an index: per row the margin threshold and the scaled adjusted target,
  and the running mean's update.
-/
import proofs.«422900_j39505109189162_2_alg».proof.Proof.HostTarget
import Idealize.ShloMosaic.Lib.ValueIdxRank1

noncomputable section

namespace Cert.KernelIdeal.HostAt.Cols

open Cert.KernelIdeal Cert.KernelIdeal.Gen Cert.KernelIdeal.Data Cert.Margin
open Idealize.ShloMosaic Idealize.ShloMosaic.TcCoe Idealize.SL.Sem Idealize.ShloMosaic.ValueIdx

variable (m : (ℓ : Loc nD τ sig) → Buf (Elt Ideal) ℓ) (c : Dev nD)

/-! ## The host part in two halves -/

/-- The buffers once every row's target cosine is computed. -/
def W (c : Dev nD) : Valuation τ sig (Elt Ideal) :=
  StableHlo.after (hostOps0_2 (F := Ideal)) (StableHlo.after (hostOps0_1 (F := Ideal)) (StableHlo.after (hostOps0 (F := Ideal)) (fun b => m (c, b))))

/-- What the region finds is what the operations after the target cosines make of those buffers. -/
theorem V_eq (b : Ref sig .tc) :
    V m c b = StableHlo.after (hostOps0_5 (F := Ideal)) (StableHlo.after (hostOps0_4 (F := Ideal)) (StableHlo.after (hostOps0_3 (F := Ideal)) (W m c))) b := by
  unfold W
  dsimp only [Gen.V]
  rw [List.flatten_cons, StableHlo.after_append, List.flatten_cons, StableHlo.after_append, List.flatten_cons, StableHlo.after_append,
    List.flatten_cons, StableHlo.after_append, List.flatten_cons, StableHlo.after_append, List.flatten_cons, StableHlo.after_append, List.flatten_nil, StableHlo.after_nil]

/-- No later operation writes the target cosines. -/
theorem V17_eq : (V m c main_v17 : S512.Idx → EReal) = W m c main_v17 := by
  rw [V_eq]
  generalize W m c = w
  simp only [Gen.hostOps0_3, Gen.hostOps0_4, Gen.hostOps0_5]
  after_results_simp

/-- No operation up to the target cosines writes the running mean. -/
theorem W_arg3 : (W m c main_arg3 : S_.Idx → EReal) = m ((c.tc : Thread nD τ).loc main_arg3) := by
  unfold W
  simp only [Gen.hostOps0, Gen.hostOps0_1, Gen.hostOps0_2]
  after_results_simp

/-! ## The later operations as functions of the vector of target cosines -/

/-- A vector of 512 floats, and a scalar. -/
abbrev V512 : Type := FVec Ideal S512 .f32
abbrev V0 : Type := FVec Ideal S_ .f32

/-- The constant vector of a word. -/
def splat (w : BitVec 32) : V512 := broadcastInDim S512 ![] bcast_S_S512 (constant (F := Ideal) S_ .f32 w)

/-- The margin thresholds, row by row. -/
def ctmVec (tl : V512) : V512 :=
  subf (mulf tl (splat 0x3F60A940#32))
    (mulf (Host.sqrt (F := Ideal) (maximumf (subf (splat 0x3F800000#32) (mulf tl tl)) (splat 0x00000000#32))) (splat 0x3EF57744#32))

/-- The scaled adjusted targets, row by row. -/
def ftlVec (tl : V512) : V512 :=
  mulf (select (cmpf (F := Ideal) .ogt tl (splat 0xBF60A940#32)) (ctmVec tl) (subf tl (splat 0x3E757744#32))) (splat 0x42800000#32)

/-- The running mean's update. -/
def ntVec (tl : V512) (t : V0) : V0 :=
  addf (mulf (constant (F := Ideal) S_ .f32 0x3C23D70A#32)
      (Host.divf (F := Ideal) (Host.reduceAdd (F := Ideal) tl (constant (F := Ideal) S_ .f32 0x00000000#32) reducesTo_S512_S_d0 h_S_) (constant (F := Ideal) S_ .f32 0x44000000#32)))
    (mulf (constant (F := Ideal) S_ .f32 0x3F7D70A4#32) t)

theorem V41_eq : (V m c main_v41 : S512x1.Idx → EReal) = shapeCast S512x1 (ctmVec (W m c main_v17)) shapeCasts_S512_S512x1 := by
  rw [V_eq]
  generalize W m c = w
  simp only [Gen.hostOps0_3, Gen.hostOps0_4, Gen.hostOps0_5]
  after_results_simp
  rfl

theorem V44_eq : (V m c main_v44 : S512x1.Idx → EReal) = shapeCast S512x1 (ftlVec (W m c main_v17)) shapeCasts_S512_S512x1 := by
  rw [V_eq]
  generalize W m c = w
  simp only [Gen.hostOps0_3, Gen.hostOps0_4, Gen.hostOps0_5]
  after_results_simp
  rfl

theorem V45_eq : (V m c main_v45 : S1x1.Idx → EReal) = shapeCast S1x1 (ntVec (W m c main_v17) (W m c main_arg3)) shapeCasts_S_S1x1 := by
  rw [V_eq]
  generalize W m c = w
  simp only [Gen.hostOps0_3, Gen.hostOps0_4, Gen.hostOps0_5]
  after_results_simp
  rfl

/-! ## Those functions read at an index -/

theorem splat_apply (w : BitVec 32) (i : S512.Idx) : splat w i = Ideal.ofBits .f32 w := rfl

theorem ctmVec_apply (tl : V512) (i : S512.Idx) : ctmVec tl i = cosMargin (tl i) (sinKer (tl i)) := rfl

theorem ftlVec_apply (tl : V512) (i : S512.Idx) : ftlVec tl i = finalTarget (tl i) (cosMargin (tl i) (sinKer (tl i))) * scale := rfl

theorem ntVec_apply (tl : V512) (t : V0) (i : S_.Idx) : ntVec tl t i = newT (zero + ∑ b : Fin 512, tl (ix1 b)) (t ix0) := by
  unfold ntVec newT
  rw [addf_apply, mulf_apply, mulf_apply, eq_ix0 i]
  refine congrArg₂ (· + ·) (congrArg (wNew * ·) ?_) rfl
  show Ideal.div (Host.reduceAdd (F := Ideal) tl (constant (F := Ideal) S_ .f32 0x00000000#32) reducesTo_S512_S_d0 h_S_ ix0) nB = _
  refine congrArg (Ideal.div · nB) ?_
  simp only [Host.reduceAdd, Ideal.hostReduceAdd_def]
  refine (Ideal.hostReduceAdd_total reducesTo_S512_S_d0 (fun b => b.elim0) tl _ ix0).trans ?_
  refine congrArg (zero + ·) ?_
  exact (Equiv.sum_comp (idxEquiv1 (n := 512)).symm tl).symm

/-- A column read at row `b` is the vector's entry `b`. -/
theorem col_apply (y : V512) (b : Fin 512) : shapeCast S512x1 y shapeCasts_S512_S512x1 (ix2 b 0) = y (ix1 b) :=
  shapeCast_apply y shapeCasts_S512_S512x1 (ix2 b 0) (ix1 b)
    (by rewrite [Shape.rowMajor_val_two, Shape.rowMajor_val_one]; show b.val = b.val * 1 + 0; omega)

/-- The one-by-one matrix of a scalar holds the scalar. -/
theorem one_apply (y : V0) : shapeCast S1x1 y shapeCasts_S_S1x1 (ix2 0 0) = y ix0 :=
  shapeCast_apply y shapeCasts_S_S1x1 (ix2 0 0) ix0 (by rewrite [Shape.rowMajor_val_two]; rfl)

end Cert.KernelIdeal.HostAt.Cols

namespace Cert.KernelIdeal.HostAt

open Cert.KernelIdeal Cert.KernelIdeal.Gen Cert.KernelIdeal.Data Cert.Margin
open Idealize.ShloMosaic Idealize.ShloMosaic.TcCoe Idealize.SL.Sem Idealize.ShloMosaic.ValueIdx
open Cert.KernelIdeal.HostAt.Cols

variable (m : (ℓ : Loc nD τ sig) → Buf (Elt Ideal) ℓ) (c : Dev nD)

/-! ## The three inputs of the kernel -/

theorem v41_at (hlab : ∀ b, (argLab m c b).toNat < 100000) (b : Fin 512) :
    (V m c main_v41 : S512x1.Idx → EReal) (ix2 b 0) = ctmK (argX m c) (argLab m c) (argK m c) b := by
  rw [V41_eq, col_apply, ctmVec_apply, ← V17_eq, v17_at m c hlab b]
  rfl

theorem v44_at (hlab : ∀ b, (argLab m c b).toNat < 100000) (b : Fin 512) :
    (V m c main_v44 : S512x1.Idx → EReal) (ix2 b 0) = ftlK (argX m c) (argLab m c) (argK m c) b := by
  rw [V44_eq, col_apply, ftlVec_apply, ← V17_eq, v17_at m c hlab b]
  rfl

theorem v45_at (hlab : ∀ b, (argLab m c b).toNat < 100000) :
    (V m c main_v45 : S1x1.Idx → EReal) (ix2 0 0) = ntK (argX m c) (argLab m c) (argK m c) (argT m c) := by
  rw [V45_eq, one_apply, ntVec_apply, ← V17_eq, W_arg3]
  simp only [v17_at m c hlab]
  rfl

end Cert.KernelIdeal.HostAt

end
-- ==== Proof.KernelValue.lean ====
/-
  The result array after the run, entry by entry: the tiles the grid points wrote back cover the logits, and each column of
  each tile is the kernel's arrangement of the margin logits at that column.
-/
import proofs.«422900_j39505109189162_2_alg».proof.Proof.KernelData
import proofs.«422900_j39505109189162_2_alg».proof.Proof.PayloadAt
import proofs.«422900_j39505109189162_2_alg».proof.Proof.HostCols
import Idealize.ShloMosaic.Lib.Pipeline.Value

noncomputable section

namespace Cert.KernelIdeal.Final

open Cert.KernelIdeal Cert.KernelIdeal.Gen Cert.KernelIdeal.Data Cert.Margin
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (c : Dev nD)

/-- The printed index maps and cuts, decided over the grid: the class matrix's and the result's tile at point `t` is
    block (0, t), whole in its rows, and in its columns cut at the matrix's end (2048 columns, 1696 at the last point). -/
theorem idx_facts : ∀ t : Fin cfg0.N,
    win0_6.index t (0 : Fin 2) = 0 ∧ win0_6.index t (1 : Fin 2) = t.val
    ∧ win0_1.index t (0 : Fin 2) = 0 ∧ win0_1.index t (1 : Fin 2) = t.val
    ∧ ((grid0.coords t) 0).val = t.val
    ∧ win0_6.xsize (grid0.coords t) (0 : Fin 2) = 512
    ∧ t.val * 2048 + win0_6.xsize (grid0.coords t) (1 : Fin 2) = min (t.val * 2048 + 2048) 100000
    ∧ win0_1.xsize (grid0.coords t) (0 : Fin 2) = 512
    ∧ t.val * 2048 + win0_1.xsize (grid0.coords t) (1 : Fin 2) = min (t.val * 2048 + 2048) 100000 :=
  (by decide +kernel : ∀ t : Fin grid0.N, _)

/-- The five resident windows sit at block (0, 0) at every point. -/
theorem idx_res : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- One grid point's result at a row and a column is the kernel's arrangement at the column of the class matrix the tile's
    column is, when the tile's column is that column and the per-row quantities are the specification's. -/
theorem tileOut_eq_outKer (x : SBD.Idx → EReal) (lab : Fin 512 → BitVec 32) (k : SDN.Idx → EReal) (t : EReal)
    (v : STile.Idx → EReal) (e : SBD.Idx → EReal) (lab' : Fin 512 → BitVec 32) (ctm ftl : Fin 512 → EReal) (nt : EReal)
    (p : Nat) (b : Fin 512) (q : Fin 2048) (j : Fin 100000)
    (hj : j.val = p * 2048 + q.val)
    (hv : ∀ d : Fin 512, v (ix2 d q) = k (ix2 d j))
    (he : ∀ d : Fin 512, e (ix2 b d) = rowUnit x (ix2 b d))
    (hl : lab' b = lab b) (hc : ctm b = ctmK x lab k b) (hf : ftl b = ftlK x lab k b) (hn : nt = ntK x lab k t) :
    tileOut v e lab' ctm ftl nt p b q = outKer x lab k t b j := by
  unfold tileOut outKer cosKer dotCol colSq
  simp only [hv, he, hl, hc, hf, hn, hj]

/-- The resident blocks, read at an entry: each is its whole array. The normalised embeddings; -/
theorem iblk0_at (t : Fin cfg0.N) (b d : Fin 512) :
    (iblk m c 0 t : S512x512.Idx → EReal) (ix2 b d) = (V m c main_v39 : S512x512.Idx → EReal) (ix2 b d) := by
  obtain ⟨e0, e1, -⟩ := idx_res t
  unfold Gen.iblk
  rw [View.read_apply]
  show (V m c main_v39 : S512x512.Idx → EReal) _ = _
  congr 1
  funext a; apply Fin.ext
  match a with
  | ⟨0, _⟩ => show win0_0.index t (0 : Fin 2) * 512 + 1 * b.val = b.val; omega
  | ⟨1, _⟩ => show win0_0.index t (1 : Fin 2) * 512 + 1 * d.val = d.val; omega

/-- the label words; -/
theorem iblk2_at (t : Fin cfg0.N) (b : Fin 512) :
    (iblk m c 2 t : S512x1.Idx → BitVec 32) (ix2 b 0) = (V m c main_v40 : S512x1.Idx → BitVec 32) (ix2 b 0) := by
  obtain ⟨-, -, e0, e1, -⟩ := idx_res t
  unfold Gen.iblk
  rw [View.read_apply]
  show (V m c main_v40 : S512x1.Idx → BitVec 32) _ = _
  congr 1
  funext a; apply Fin.ext
  match a with
  | ⟨0, _⟩ => show win0_2.index t (0 : Fin 2) * 512 + 1 * b.val = b.val; omega
  | ⟨1, _⟩ => show win0_2.index t (1 : Fin 2) * 1 + 1 * 0 = 0; omega

/-- the margin thresholds; -/
theorem iblk3_at (t : Fin cfg0.N) (b : Fin 512) :
    (iblk m c 3 t : S512x1.Idx → EReal) (ix2 b 0) = (V m c main_v41 : S512x1.Idx → EReal) (ix2 b 0) := by
  obtain ⟨-, -, -, -, e0, e1, -⟩ := idx_res t
  unfold Gen.iblk
  rw [View.read_apply]
  show (V m c main_v41 : S512x1.Idx → EReal) _ = _
  congr 1
  funext a; apply Fin.ext
  match a with
  | ⟨0, _⟩ => show win0_3.index t (0 : Fin 2) * 512 + 1 * b.val = b.val; omega
  | ⟨1, _⟩ => show win0_3.index t (1 : Fin 2) * 1 + 1 * 0 = 0; omega

/-- the scaled adjusted targets; -/
theorem iblk4_at (t : Fin cfg0.N) (b : Fin 512) :
    (iblk m c 4 t : S512x1.Idx → EReal) (ix2 b 0) = (V m c main_v44 : S512x1.Idx → EReal) (ix2 b 0) := by
  obtain ⟨-, -, -, -, -, -, e0, e1, -⟩ := idx_res t
  unfold Gen.iblk
  rw [View.read_apply]
  show (V m c main_v44 : S512x1.Idx → EReal) _ = _
  congr 1
  funext a; apply Fin.ext
  match a with
  | ⟨0, _⟩ => show win0_4.index t (0 : Fin 2) * 512 + 1 * b.val = b.val; omega
  | ⟨1, _⟩ => show win0_4.index t (1 : Fin 2) * 1 + 1 * 0 = 0; omega

/-- the running mean. -/
theorem iblk5_at (t : Fin cfg0.N) :
    (iblk m c 5 t : S1x1.Idx → EReal) (ix2 0 0) = (V m c main_v45 : S1x1.Idx → EReal) (ix2 0 0) := by
  obtain ⟨-, -, -, -, -, -, -, -, e0, e1⟩ := idx_res t
  unfold Gen.iblk
  rw [View.read_apply]
  show (V m c main_v45 : S1x1.Idx → EReal) _ = _
  congr 1
  funext a; apply Fin.ext
  match a with
  | ⟨0, _⟩ => show win0_5.index t (0 : Fin 2) * 1 + 1 * 0 = 0; omega
  | ⟨1, _⟩ => show win0_5.index t (1 : Fin 2) * 1 + 1 * 0 = 0; omega

/-- The tile at point `t`, at a column inside the class matrix, holds the matrix's column `2048·t + q`. -/
theorem tile_at (t : Fin cfg0.N) (d : Fin 512) (q : Fin 2048) (j : Fin 100000) (hj : j.val = t.val * 2048 + q.val) :
    (tileAt m c t : S512x2048.Idx → EReal) (ix2 d q) = argK m c (ix2 d j) := by
  obtain ⟨-, -, e0, e1, -, -, -, s0, s1⟩ := idx_facts t
  have hjl : j.val < 100000 := j.isLt
  have hd : d.val < win0_1.xsize (grid0.coords t) (0 : Fin 2) := by have := d.isLt; omega
  have hq : q.val < win0_1.xsize (grid0.coords t) (1 : Fin 2) := by have := q.isLt; omega
  let y : (win0_1.xblock (grid0.coords t)).Idx := fun a => match a with | ⟨0, _⟩ => ⟨d.val, hd⟩ | ⟨1, _⟩ => ⟨q.val, hq⟩
  have hy : (ix2 d q : S512x2048.Idx) = win0_1.xinj (grid0.coords t) y := by
    funext a; apply Fin.ext
    match a with
    | ⟨0, _⟩ => rfl
    | ⟨1, _⟩ => rfl
  unfold tileAt
  rw [hy, Window.fill_xinj]
  unfold Gen.iblk
  rw [View.read_apply]
  show (V m c main_arg2 : S512x100000.Idx → EReal) _ = _
  rw [V_main_arg2]
  show (m ((c.tc : Thread nD τ).loc main_arg2) : S512x100000.Idx → EReal) _ = (m ((c.tc : Thread nD τ).loc main_arg2) : S512x100000.Idx → EReal) _
  congr 1
  funext a; apply Fin.ext
  match a with
  | ⟨0, _⟩ => show win0_1.index t (0 : Fin 2) * 512 + 1 * d.val = d.val; omega
  | ⟨1, _⟩ => show win0_1.index t (1 : Fin 2) * 2048 + 1 * q.val = j.val; omega

/-- The kernel's arrangement of the margin logits, as one array of the four argument arrays. -/
def G : S512x100000.Idx → EReal := fun i =>
  outKer (argX m c) (argLab m c) (argK m c) (argT m c) (i 0) (i 1)

/-- The output tile at point `t`, at a row and at a column inside the logits: the kernel's arrangement at column `2048·t + q`. -/
theorem outAt_at (hlab : ∀ b, (argLab m c b).toNat < 100000) (t : Fin cfg0.N) (b : Fin 512) (q : Fin 2048) (j : Fin 100000)
    (hj : j.val = t.val * 2048 + q.val) :
    (outAt m c t : S512x2048.Idx → EReal) (ix2 b q) = outKer (argX m c) (argLab m c) (argK m c) (argT m c) b j := by
  obtain ⟨-, -, -, -, ec, -⟩ := idx_facts t
  unfold outAt
  refine (PayAt.pay_at (grid0.coords t) (tileAt m c t) (iblk m c 0 t) (iblk m c 3 t) (iblk m c 5 t) (iblk m c 2 t) (iblk m c 4 t) b q).trans ?_
  refine tileOut_eq_outKer (argX m c) (argLab m c) (argK m c) (argT m c) (tileAt m c t) (iblk m c 0 t)
    (fun b => (iblk m c 2 t : S512x1.Idx → BitVec 32) (ix2 b 0)) (fun b => (iblk m c 3 t : S512x1.Idx → EReal) (ix2 b 0))
    (fun b => (iblk m c 4 t : S512x1.Idx → EReal) (ix2 b 0)) ((iblk m c 5 t : S1x1.Idx → EReal) (ix2 0 0))
    (grid0.coords t 0).val b q j ?_ ?_ ?_ ?_ ?_ ?_ ?_
  · rw [ec]; exact hj
  · intro d
    exact tile_at m c t d q j hj
  · intro d
    exact (iblk0_at m c t b d).trans (HostAt.v39_at m c b d)
  · exact (iblk2_at m c t b).trans (HostAt.v40_at m c b)
  · exact (iblk3_at m c t b).trans (HostAt.v41_at m c hlab b)
  · exact (iblk4_at m c t b).trans (HostAt.v44_at m c hlab b)
  · exact (iblk5_at m c t).trans (HostAt.v45_at m c hlab)

/-- The output window's staging buffer after the body at point `t` holds the output tile. -/
theorem after_out (t : Fin cfg0.N) : (dats m 0 c).after 6 t = outAt m c t := by
  simp only [dats]

/-- What point `t` writes back is its block of that array. -/
theorem flushed_eq (hlab : ∀ b, (argLab m c b).toNat < 100000) (t : Fin cfg0.N) :
    (dats m 0 c).flushed 6 t = ((cfg0.win 6).blk t).view.read (Elt Ideal) (G m c) := by
  obtain ⟨e0, e1, -, -, -, s0, s1, -, -⟩ := idx_facts t
  show (cfg0.win 6).cut (grid0.coords t) ((dats m 0 c).after 6 t) = _
  rw [after_out]
  funext y
  rw [View.read_apply]
  have y0 : (y 0).val < win0_6.xsize (grid0.coords t) (0 : Fin 2) := (y 0).isLt
  have y1 : (y 1).val < win0_6.xsize (grid0.coords t) (1 : Fin 2) := (y 1).isLt
  have hb : (y 0).val < 512 := by omega
  have hq : (y 1).val < 2048 := by omega
  have hj : t.val * 2048 + (y 1).val < 100000 := by omega
  have hxi : win0_6.xinj (grid0.coords t) y = (ix2 (⟨(y 0).val, hb⟩ : Fin 512) (⟨(y 1).val, hq⟩ : Fin 2048) : S512x2048.Idx) := by
    funext a; apply Fin.ext
    match a with
    | ⟨0, _⟩ => rfl
    | ⟨1, _⟩ => rfl
  have hemb : ((cfg0.win 6).blk t).view.emb y
      = (ix2 (⟨(y 0).val, hb⟩ : Fin 512) (⟨t.val * 2048 + (y 1).val, hj⟩ : Fin 100000) : S512x100000.Idx) := by
    funext a; apply Fin.ext
    match a with
    | ⟨0, _⟩ => show win0_6.index t (0 : Fin 2) * 512 + 1 * (y 0).val = (y 0).val; omega
    | ⟨1, _⟩ => show win0_6.index t (1 : Fin 2) * 2048 + 1 * (y 1).val = t.val * 2048 + (y 1).val; omega
  show (outAt m c t : S512x2048.Idx → EReal) (win0_6.xinj (grid0.coords t) y) = G m c (((cfg0.win 6).blk t).view.emb y)
  rw [hxi, hemb]
  exact outAt_at m c hlab t ⟨(y 0).val, hb⟩ ⟨(y 1).val, hq⟩ ⟨t.val * 2048 + (y 1).val, hj⟩ rfl

/-- An entry of the logits is in point `t`'s block iff each coordinate is in the block's range on its axis. -/
theorem mem_blk (t : Fin cfg0.N) (i : S512x100000.Idx) :
    i ∈ ((cfg0.win 6).blk t).view.set ↔ ∀ a : Fin 2, win0_6.index t a * S512x2048.size a ≤ (i a).val
      ∧ (i a).val < win0_6.index t a * S512x2048.size a + win0_6.xsize (grid0.coords t) a := by
  show i ∈ ((View.whole main_v46).slice (win0_6.rect t)).set ↔ _
  rw [View.set_slice_whole, Rect.mem_set_unit]
  exact Iff.rfl

/-- Column `j` lies in the block of point `j / 2048`. -/
theorem cover (i : S512x100000.Idx) :
    ∃ t : Fin cfg0.N, (cfg0.win 6).flush t = true ∧ i ∈ ((cfg0.win 6).blk t).view.set := by
  have hi0 : (i 0).val < 512 := (i 0).isLt
  have hi1 : (i 1).val < 100000 := (i 1).isLt
  have hN : cfg0.N = 49 := by decide
  have ht : (i 1).val / 2048 < cfg0.N := by rw [hN]; omega
  obtain ⟨e0, e1, -, -, -, s0, s1, -, -⟩ := idx_facts ⟨(i 1).val / 2048, ht⟩
  refine ⟨⟨(i 1).val / 2048, ht⟩, flush0_6 _, ?_⟩
  rw [mem_blk]
  intro a
  match a with
  | ⟨0, _⟩ =>
    show win0_6.index ⟨(i 1).val / 2048, ht⟩ (0 : Fin 2) * 512 ≤ (i 0).val
      ∧ (i 0).val < win0_6.index ⟨(i 1).val / 2048, ht⟩ (0 : Fin 2) * 512 + win0_6.xsize (grid0.coords ⟨(i 1).val / 2048, ht⟩) (0 : Fin 2)
    omega
  | ⟨1, _⟩ =>
    show win0_6.index ⟨(i 1).val / 2048, ht⟩ (1 : Fin 2) * 2048 ≤ (i 1).val
      ∧ (i 1).val < win0_6.index ⟨(i 1).val / 2048, ht⟩ (1 : Fin 2) * 2048 + win0_6.xsize (grid0.coords ⟨(i 1).val / 2048, ht⟩) (1 : Fin 2)
    have e1' : win0_6.index ⟨(i 1).val / 2048, ht⟩ (1 : Fin 2) = (i 1).val / 2048 := e1
    have s1' : (i 1).val / 2048 * 2048 + win0_6.xsize (grid0.coords ⟨(i 1).val / 2048, ht⟩) (1 : Fin 2)
        = min ((i 1).val / 2048 * 2048 + 2048) 100000 := s1
    omega

/-- The result array after the run, at row `b` and column `j`: the blocks the 49 points wrote back cover it, and each is
    its block of the kernel's arrangement. -/
theorem final_at (hlab : ∀ b, (argLab m c b).toNat < 100000) (b : Fin 512) (j : Fin 100000) :
    ((dats m 0 c).arrAt 6 cfg0.N : S512x100000.Idx → EReal) (ix2 b j)
      = outKer (argX m c) (argLab m c) (argK m c) (argT m c) b j := by
  have h := (dats m 0 c).arrAt_eq_of_cover 6 (G m c) (fun t _ => flushed_eq m c hlab t) cover
  exact congrFun h (ix2 b j)

end Cert.KernelIdeal.Final

end
-- ==== Proof.RefCos.lean ====
/-
  The reference's normalised embeddings, its clipped cosines and each row's target cosine, read at an index.
-/
import proofs.«422900_j39505109189162_2_alg».proof.Proof.Gen.ReferenceIdeal.Read
import proofs.«422900_j39505109189162_2_alg».proof.Proof.Spec

noncomputable section

namespace Cert.ReferenceIdeal.RefAt

open Cert.ReferenceIdeal Cert.ReferenceIdeal.Gen Cert.ReferenceIdeal.Read Cert.Margin
open Idealize.ShloMosaic Idealize.ShloMosaic.ValueIdx

/-! ## The normalised embeddings and the clipped cosines -/

theorem emb_at (x0 : S512x512.Idx → EReal) (b d : Fin 512) : val_main_v2 (F := Ideal) x0 (ix2 b d) = rowUnit x0 (ix2 b d) := by
  rw [val_main_v2_apply, val_main_v1_apply, val_main_v0_apply, val_main_call0_v2_apply, val_main_call0_v1_apply]
  have hidx : ∀ k : Fin 512, idx_main_call0_v1 (idx_main_call0_v2 (idx_main_v1 (ix2 b d))) k = ix2 b k := fun k =>
    funext fun a => Fin.ext (by match a with | ⟨0, _⟩ => rfl | ⟨1, _⟩ => rfl)
  simp only [hidx, val_main_call0_v0_apply, Ideal.hostDivf_def, Ideal.hostUnary_sqrt_def, Ideal.mulf_def]
  rfl

/-- An entry of the class matrix divided by its column's Euclidean norm. -/
theorem col_at (x2 : S512x100000.Idx → EReal) (d : Fin 512) (j : Fin 100000) :
    val_main_v5 (F := Ideal) x2 (ix2 d j) = Ideal.div (x2 (ix2 d j)) (Ideal.sqrt (zero + colSq x2 j)) := by
  rw [val_main_v5_apply, val_main_v4_apply, val_main_v3_apply, val_main_call1_v2_apply, val_main_call1_v1_apply]
  have hidx : ∀ k : Fin 512, idx_main_call1_v1 (idx_main_call1_v2 (idx_main_v4 (ix2 d j))) k = ix2 k j := fun k =>
    funext fun a => Fin.ext (by match a with | ⟨0, _⟩ => rfl | ⟨1, _⟩ => rfl)
  simp only [hidx, val_main_call1_v0_apply, Ideal.hostDivf_def, Ideal.hostUnary_sqrt_def, Ideal.mulf_def]
  rfl

theorem cos_at (x0 : S512x512.Idx → EReal) (x2 : S512x100000.Idx → EReal) (b : Fin 512) (j : Fin 100000) :
    val_main_v7 (F := Ideal) x0 x2 (ix2 b j) = cosRef (rowUnit x0) x2 b j := by
  rw [val_main_v7_apply, val_main_call2_v2_apply, val_main_call2_v4_apply, val_main_call2_v1_apply, val_main_v6_apply]
  have hl : ∀ k : Fin 512, lidx_main_v6 (ix2 b j) k = ix2 b k := fun k =>
    funext fun a => Fin.ext (by match a with | ⟨0, _⟩ => rfl | ⟨1, _⟩ => rfl)
  have hr : ∀ k : Fin 512, ridx_main_v6 (ix2 b j) k = ix2 k j := fun k =>
    funext fun a => Fin.ext (by match a with | ⟨0, _⟩ => rfl | ⟨1, _⟩ => rfl)
  simp only [hl, hr, emb_at, col_at, Ideal.minimumf_def, Ideal.maximumf_def]
  rfl

/-! ## Words -/

/-- A word below `2 ^ 31` is not negative as a signed integer, so adding the extent to the negative ones leaves it. -/
theorem norm_word (w c : BitVec 32) (hw : w.toNat < 2 ^ 31) :
    Scalar.select (IntOp.cmpi .slt w 0#32) (IntOp.addi w c) w = w := by
  have ma : w.msb = false := BitVec.msb_eq_false_iff_two_mul_lt.mpr (by omega)
  have h : IntOp.cmpi .slt w 0#32 = 0#1 := by
    have hn : ¬ ((w.toNat : Int) < 0) := by omega
    unfold IntOp.cmpi
    simp [BitVec.slt, BitVec.toInt_eq_msb_cond, ma, hn]
  rw [h]
  exact select_zero _ _

/-- A word below `2 ^ 31` read as a signed integer is its value. -/
theorem toInt_toNat_small (w : BitVec 32) (hw : w.toNat < 2 ^ 31) : w.toInt.toNat = w.toNat := by
  have ma : w.msb = false := BitVec.msb_eq_false_iff_two_mul_lt.mpr (by omega)
  rw [BitVec.toInt_eq_msb_cond, ma]
  simp

/-! ## The index pairs: row `b` pairs its own number with its label word -/

theorem pair_row (x1 : S512.Idx → BitVec 32) (b : Fin 512) :
    val_main_v21 (F := Ideal) x1 (ix2 b (0 : Fin 2)) = BitVec.ofNat 32 b.val := by
  unfold val_main_v21
  refine (concatenate_pair_apply_left (t := S512x2) (s₁ := S512x1) (s₂ := S512x1) _ _ _ _ (ix2 b (0 : Fin 2)) rfl (ix2 b (0 : Fin 1))
    (fun c => by match c with | ⟨0, _⟩ => rfl | ⟨1, _⟩ => rfl)).trans ?_
  rw [val_main_v19_apply, val_main_v13_apply, val_main_v10_apply, val_main_v8_apply, val_main_v9_apply, val_main_c_apply]
  refine norm_word _ _ ?_
  show (BitVec.ofNat 32 b.val).toNat < 2 ^ 31
  rw [BitVec.toNat_ofNat]
  have := b.isLt
  omega

theorem pair_lab (x1 : S512.Idx → BitVec 32) (b : Fin 512) (hb : (x1 (ix1 b)).toNat < 100000) :
    val_main_v21 (F := Ideal) x1 (ix2 b (1 : Fin 2)) = x1 (ix1 b) := by
  unfold val_main_v21
  refine (concatenate_pair_apply_right (t := S512x2) (s₁ := S512x1) (s₂ := S512x1) _ _ _ _ (ix2 b (1 : Fin 2)) rfl rfl (ix2 b (0 : Fin 1))
    (fun c => by
      match c with
      | ⟨0, _⟩ => exact fun _ => rfl
      | ⟨1, _⟩ => exact fun h => absurd rfl h) rfl).trans ?_
  have hi : idx_main_v20 (ix2 b (0 : Fin 1)) = ix1 b := funext fun a => Fin.ext (by match a with | ⟨0, _⟩ => rfl)
  rw [val_main_v20_apply, hi, val_main_v18_apply, val_main_v15_apply, val_main_v14_apply, val_main_c_2_apply]
  exact norm_word _ _ (by omega)

/-! ## The gather of one entry per row -/

/-- The pair gather at row `b`: the operand at the two start words of row `b`, each read signed and clamped to its extent. -/
theorem gather_pair_apply {α : Type} (x : S512x100000.Idx → α) (idx : S512x2.Idx → BitVec 32) (b r : Fin 512) (c : Fin 100000)
    (hr : r.val = min (idx (ix2 b (0 : Fin 2))).toInt.toNat 511) (hc : c.val = min (idx (ix2 b (1 : Fin 2))).toInt.toNat 99999) :
    Host.gather gather_S512x100000_S512x2_S512_n_01_n_n_01_1_11 x idx (ix1 b) = x (ix2 r c) := by
  unfold Host.gather
  congr 1
  funext a
  refine Fin.ext ?_
  match a with
  | ⟨0, _⟩ =>
    show gather_S512x100000_S512x2_S512_n_01_n_n_01_1_11.start (ix1 b) idx 0
        + gather_S512x100000_S512x2_S512_n_01_n_n_01_1_11.batchCoord (ix1 b) 0
        + gather_S512x100000_S512x2_S512_n_01_n_n_01_1_11.offCoord (ix1 b) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S512x100000_S512x2_S512_n_01_n_n_01_1_11.startIndexMap by decide)]
    have hsi : gather_S512x100000_S512x2_S512_n_01_n_n_01_1_11.siIdx (ix1 b)
        ⟨List.idxOf (0 : Fin 2) gather_S512x100000_S512x2_S512_n_01_n_n_01_1_11.startIndexMap,
          List.idxOf_lt_length_iff.2 (by decide)⟩ = ix2 b (0 : Fin 2) := by
      funext c; refine Fin.ext ?_
      match c with
      | ⟨0, _⟩ => rfl
      | ⟨1, _⟩ => rfl
    rw [hsi]
    exact hr.symm
  | ⟨1, _⟩ =>
    show gather_S512x100000_S512x2_S512_n_01_n_n_01_1_11.start (ix1 b) idx 1
        + gather_S512x100000_S512x2_S512_n_01_n_n_01_1_11.batchCoord (ix1 b) 1
        + gather_S512x100000_S512x2_S512_n_01_n_n_01_1_11.offCoord (ix1 b) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S512x100000_S512x2_S512_n_01_n_n_01_1_11.startIndexMap by decide)]
    have hsi : gather_S512x100000_S512x2_S512_n_01_n_n_01_1_11.siIdx (ix1 b)
        ⟨List.idxOf (1 : Fin 2) gather_S512x100000_S512x2_S512_n_01_n_n_01_1_11.startIndexMap,
          List.idxOf_lt_length_iff.2 (by decide)⟩ = ix2 b (1 : Fin 2) := by
      funext c; refine Fin.ext ?_
      match c with
      | ⟨0, _⟩ => rfl
      | ⟨1, _⟩ => rfl
    rw [hsi]
    exact hc.symm

/-! ## Each row's target cosine -/

theorem tl_at (x0 : S512x512.Idx → EReal) (x1 : S512.Idx → BitVec 32) (x2 : S512x100000.Idx → EReal)
    (hlab : ∀ b : Fin 512, (x1 (ix1 b)).toNat < 100000) (b : Fin 512) :
    val_main_v22 (F := Ideal) x0 x1 x2 (ix1 b) = tlR x0 (fun b => x1 (ix1 b)) x2 b := by
  unfold val_main_v22
  refine (gather_pair_apply _ _ b b (labIx (x1 (ix1 b))) ?_ ?_).trans (cos_at x0 x2 b _)
  · rw [pair_row, toInt_toNat_small _ (by rw [BitVec.toNat_ofNat]; have := b.isLt; omega), BitVec.toNat_ofNat]
    have := b.isLt
    omega
  · have hb := hlab b
    rw [pair_lab x1 b hb, toInt_toNat_small _ (by omega)]
    show (x1 (ix1 b)).toNat % 100000 = _
    omega

end Cert.ReferenceIdeal.RefAt

end
-- ==== Proof.RefOut.lean ====
/-
  The reference's result read at an index: the margin thresholds, the re-weighted cosines, the target column overwritten,
  the final scale.

  Row `b`'s target cosine `tl` gives the threshold `tl · cos m − √(1 − tl²) · sin m`, the adjusted target (the threshold
  while `tl` exceeds `cos (π − m)`, else `tl − m · sin m`) and, summed over the rows, the running mean. A cosine above its
  row's threshold is re-weighted `c · (t' + c)`. The overwrite of the target column is a fold of 512 single-entry
  updates, row `r`'s landing at `(r, label r)`: the rows differ, so at most one update lands on any entry, and the
  entry `(b, j)` holds row `b`'s adjusted target when `j` is `b`'s label and its re-weighted cosine otherwise.
-/
import proofs.«422900_j39505109189162_2_alg».proof.Proof.RefCos

noncomputable section

namespace Cert.ReferenceIdeal.RefAt

open Cert.ReferenceIdeal Cert.ReferenceIdeal.Gen Cert.ReferenceIdeal.Read Cert.Margin
open Idealize.ShloMosaic Idealize.ShloMosaic.ValueIdx

namespace Out

/-! ## The per-row quantities -/

/-- The target-cosine column: entry `(b, 0)` is row `b`'s target cosine. -/
theorem tlcol_at (x0 : S512x512.Idx → EReal) (x1 : S512.Idx → BitVec 32) (x2 : S512x100000.Idx → EReal)
    (hlab : ∀ b : Fin 512, (x1 (ix1 b)).toNat < 100000) (b : Fin 512) (z : Fin 1) :
    val_main_v23 (F := Ideal) x0 x1 x2 (ix2 b z) = tlR x0 (fun b => x1 (ix1 b)) x2 b := by
  rw [val_main_v23_apply, ← tl_at x0 x1 x2 hlab b]
  exact congrArg _ (funext fun a => Fin.ext (by match a with | ⟨0, _⟩ => rfl))

/-- The margin threshold column: `tl · cos m − √(1 − tl²) · sin m`. -/
theorem ctm_at (x0 : S512x512.Idx → EReal) (x1 : S512.Idx → BitVec 32) (x2 : S512x100000.Idx → EReal)
    (hlab : ∀ b : Fin 512, (x1 (ix1 b)).toNat < 100000) (b : Fin 512) (z : Fin 1) :
    val_main_v32 (F := Ideal) x0 x1 x2 (ix2 b z) = ctmR x0 (fun b => x1 (ix1 b)) x2 b := by
  rw [val_main_v32_apply, val_main_v29_apply, val_main_v31_apply, val_main_v27_apply, val_main_v26_apply, val_main_v24_apply,
    val_main_v28_apply, val_main_v30_apply, val_main_v25_apply, tlcol_at x0 x1 x2 hlab b z]
  rfl

/-- The adjusted target column: the threshold while the target cosine exceeds `cos (π − m)`, else the linear penalty. -/
theorem ftlcol_at (x0 : S512x512.Idx → EReal) (x1 : S512.Idx → BitVec 32) (x2 : S512x100000.Idx → EReal)
    (hlab : ∀ b : Fin 512, (x1 (ix1 b)).toNat < 100000) (b : Fin 512) (z : Fin 1) :
    val_main_v39 (F := Ideal) x0 x1 x2 (ix2 b z) = ftlR x0 (fun b => x1 (ix1 b)) x2 b := by
  rw [val_main_v39_apply, val_main_v36_apply, val_main_v38_apply, val_main_v35_apply, val_main_v37_apply,
    ctm_at x0 x1 x2 hlab b z, tlcol_at x0 x1 x2 hlab b z]
  rfl

/-- The adjusted targets as a vector over the rows. -/
theorem ftl_at (x0 : S512x512.Idx → EReal) (x1 : S512.Idx → BitVec 32) (x2 : S512x100000.Idx → EReal)
    (hlab : ∀ b : Fin 512, (x1 (ix1 b)).toNat < 100000) (b : Fin 512) :
    val_main_v49 (F := Ideal) x0 x1 x2 (ix1 b) = ftlR x0 (fun b => x1 (ix1 b)) x2 b := by
  rw [val_main_v49_apply, ← ftlcol_at x0 x1 x2 hlab b 0]
  exact congrArg _ (funext fun a => Fin.ext (by
    match a with
    | ⟨0, _⟩ => exact Nat.div_one _
    | ⟨1, _⟩ => rfl))

/-- The rows of a one-column array are the rows. -/
def colEquiv : S512x1.Idx ≃ Fin 512 where
  toFun i := i 0
  invFun b := ix2 b 0
  left_inv i := by
    funext a
    match a with
    | ⟨0, _⟩ => rfl
    | ⟨1, h⟩ =>
      refine Fin.ext ?_
      have h1 : (i ⟨1, h⟩).val < 1 := (i ⟨1, h⟩).isLt
      show 0 = (i ⟨1, h⟩).val
      omega
  right_inv b := rfl

/-- The running mean after this batch. -/
theorem nt_at (x0 : S512x512.Idx → EReal) (x1 : S512.Idx → BitVec 32) (x2 : S512x100000.Idx → EReal) (x3 : S_.Idx → EReal)
    (hlab : ∀ b : Fin 512, (x1 (ix1 b)).toNat < 100000) (i : S_.Idx) :
    val_main_v44 (F := Ideal) x0 x1 x2 x3 i = ntR x0 (fun b => x1 (ix1 b)) x2 (x3 ix0) := by
  rw [val_main_v44_apply, val_main_v42_apply, val_main_v43_apply, val_main_v41_apply, val_main_v40_apply]
  have hs : ∑ j : S512x1.Idx, val_main_v23 (F := Ideal) x0 x1 x2 j = ∑ b : Fin 512, tlR x0 (fun b => x1 (ix1 b)) x2 b := by
    refine Fintype.sum_equiv colEquiv _ _ fun j => ?_
    exact (congrArg _ (colEquiv.left_inv j).symm).trans (tlcol_at x0 x1 x2 hlab (j 0) 0)
  rw [hs, eq_ix0 i]
  rfl

/-- The re-weighted cosines: a cosine above its row's threshold becomes `c · (t' + c)`. -/
theorem hard_at (x0 : S512x512.Idx → EReal) (x1 : S512.Idx → BitVec 32) (x2 : S512x100000.Idx → EReal) (x3 : S_.Idx → EReal)
    (hlab : ∀ b : Fin 512, (x1 (ix1 b)).toNat < 100000) (b : Fin 512) (j : Fin 100000) :
    val_main_v48 (F := Ideal) x0 x1 x2 x3 (ix2 b j)
      = hardRef (cosRef (rowUnit x0) x2 b j) (ctmR x0 (fun b => x1 (ix1 b)) x2 b) (ntR x0 (fun b => x1 (ix1 b)) x2 (x3 ix0)) := by
  have h33 : idx_main_v33 (ix2 b j) = ix2 b 0 :=
    funext fun a => Fin.ext (by
      match a with
      | ⟨0, _⟩ => rfl
      | ⟨1, _⟩ => rfl)
  rw [val_main_v48_apply, val_main_v34_apply, val_main_v47_apply, val_main_v46_apply, val_main_v45_apply, val_main_v33_apply,
    h33, ctm_at x0 x1 x2 hlab b 0, nt_at x0 x1 x2 x3 hlab, cos_at x0 x2 b j]
  rfl

/-! ## An overwriting scatter read at an index -/

section Overwrite

/-- A fold whose steps leave index `i'` alone, except those marked `P`, keeps the value there when none is marked. -/
theorem foldl_keep {ι κ α : Type} (P : κ → Prop) (step : (ι → α) → κ → ι → α) (i' : ι)
    (hkeep : ∀ r n, ¬ P n → step r n i' = r i') (l : List κ) (x : ι → α) (h : ∀ n ∈ l, ¬ P n) :
    l.foldl step x i' = x i' := by
  induction l generalizing x with
  | nil => rfl
  | cons a t ih =>
    rw [List.foldl_cons, ih _ (fun n hn => h n (List.mem_cons_of_mem _ hn)), hkeep _ _ (h a List.mem_cons_self)]

/-- When every marked step writes `c` at `i'` and some step is marked, the fold holds `c` there. -/
theorem foldl_hit {ι κ α : Type} (P : κ → Prop) (step : (ι → α) → κ → ι → α) (i' : ι) (c : α)
    (hkeep : ∀ r n, ¬ P n → step r n i' = r i') (hhit : ∀ r n, P n → step r n i' = c)
    (l : List κ) (x : ι → α) (hex : ∃ n ∈ l, P n) :
    l.foldl step x i' = c := by
  induction l generalizing x with
  | nil => obtain ⟨n, hn, _⟩ := hex; cases hn
  | cons a t ih =>
    rw [List.foldl_cons]
    by_cases ht : ∃ n ∈ t, P n
    · exact ih _ ht
    · rw [foldl_keep P step i' hkeep t _ (fun n hn hp => ht ⟨n, hn, hp⟩)]
      obtain ⟨n, hn, hp⟩ := hex
      rcases List.mem_cons.mp hn with e | e
      · exact hhit _ _ (e ▸ hp)
      · exact absurd ⟨n, e, hp⟩ ht

variable {s si u : Shape} {w : Nat} {α : Type}

/-- An overwriting scatter keeps the operand where no update lands. -/
theorem scatter_set_of_forall_ne (d : ScatterDims s si u) (x : s.Idx → α) (idx : IVec si w) (upd : u.Idx → α) (i' : s.Idx)
    (h : ∀ q : u.Idx, d.resultIdx? q idx ≠ some i') :
    Host.scatter d (fun _ b => b) x idx upd i' = x i' := by
  unfold Host.scatter
  refine foldl_keep (fun n => d.resultIdx? (u.rowMajor.symm n) idx = some i') _ i' ?_ _ _ (fun n _ => h _)
  intro r n hn
  dsimp only
  generalize d.resultIdx? (u.rowMajor.symm n) idx = o at hn ⊢
  cases o with
  | none => rfl
  | some i => exact if_neg (fun e => hn (by rw [e]))

/-- An overwriting scatter holds, where exactly one update lands, that update. -/
theorem scatter_set_of_unique (d : ScatterDims s si u) (x : s.Idx → α) (idx : IVec si w) (upd : u.Idx → α) (i' : s.Idx)
    (q₀ : u.Idx) (h₀ : d.resultIdx? q₀ idx = some i') (huniq : ∀ q : u.Idx, d.resultIdx? q idx = some i' → q = q₀) :
    Host.scatter d (fun _ b => b) x idx upd i' = upd q₀ := by
  unfold Host.scatter
  refine foldl_hit (fun n => d.resultIdx? (u.rowMajor.symm n) idx = some i') _ i' (upd q₀) ?_ ?_ _ _
    ⟨u.rowMajor q₀, List.mem_finRange _, by rw [Equiv.symm_apply_apply]; exact h₀⟩
  · intro r n hn
    dsimp only
    generalize d.resultIdx? (u.rowMajor.symm n) idx = o at hn ⊢
    cases o with
    | none => rfl
    | some i => exact if_neg (fun e => hn (by rw [e]))
  · intro r n hn
    dsimp only
    rw [hn]
    exact (if_pos rfl).trans (congrArg upd (huniq _ hn))

end Overwrite

/-! ## The index pairs and where each update lands -/

/-- Where update `r` of the scatter lands: at the row and column its index pair names, when both are in range. -/
theorem scatter_lands (idx : S512x2.Idx → BitVec 32) (r : Fin 512) (R : Fin 512) (C : Fin 100000)
    (h0 : (idx (ix2 r 0)).toInt = R.val) (h1 : (idx (ix2 r 1)).toInt = C.val) :
    scatter_S512x100000_S512x2_S512_n_01_01_1.resultIdx? (ix1 r) idx = some (ix2 R C) := by
  have hkept : ∀ a : Fin 2, a ∉ scatter_S512x100000_S512x2_S512_n_01_01_1.sKept := by decide
  have hmem : ∀ a : Fin 2, a ∈ scatter_S512x100000_S512x2_S512_n_01_01_1.scatterDimsToOperandDims := by decide
  have hs : ∀ a : Fin 2, scatter_S512x100000_S512x2_S512_n_01_01_1.start (ix1 r) idx a
      + scatter_S512x100000_S512x2_S512_n_01_01_1.window (ix1 r) a = (idx (ix2 r a)).toInt := by
    intro a
    have hw : scatter_S512x100000_S512x2_S512_n_01_01_1.window (ix1 r) a = 0 := by
      unfold ScatterDims.window
      rw [dif_neg (hkept a)]
    rw [hw]
    unfold ScatterDims.start
    rw [dif_pos (hmem a)]
    have hsi : scatter_S512x100000_S512x2_S512_n_01_01_1.siIdx (ix1 r)
        ⟨List.idxOf a scatter_S512x100000_S512x2_S512_n_01_01_1.scatterDimsToOperandDims, List.idxOf_lt_length_iff.2 (hmem a)⟩ = ix2 r a := by
      funext b; refine Fin.ext ?_
      match a, b with
      | ⟨0, _⟩, ⟨0, _⟩ => rfl
      | ⟨0, _⟩, ⟨1, _⟩ => rfl
      | ⟨1, _⟩, ⟨0, _⟩ => rfl
      | ⟨1, _⟩, ⟨1, _⟩ => rfl
    rw [hsi]
    simp
  have hv : ∀ a : Fin 2, (idx (ix2 r a)).toInt = ((ix2 R C a).val : Int) := by
    intro a
    match a with
    | ⟨0, _⟩ => exact h0
    | ⟨1, _⟩ => exact h1
  unfold ScatterDims.resultIdx?
  rw [dif_pos (fun a => by
    rw [hs a, hv a]
    exact ⟨Int.natCast_nonneg _, Int.ofNat_lt.mpr (ix2 R C a).isLt⟩)]
  refine congrArg some (funext fun a => Fin.ext ?_)
  show (scatter_S512x100000_S512x2_S512_n_01_01_1.start (ix1 r) idx a
      + scatter_S512x100000_S512x2_S512_n_01_01_1.window (ix1 r) a).toNat = (ix2 R C a).val
  rw [hs a, hv a, Int.toNat_natCast]

/-- A word below `2³¹` is not negative, so the wrap-around of a negative index leaves it alone. -/
theorem select_neg_wrap (w a : BitVec 32) (h : w.toNat < 2147483648) :
    Scalar.select (IntOp.cmpi .slt w 0#32) a w = w := by
  have hc : IntOp.cmpi .slt w 0#32 = 0#1 := by
    show BitVec.ofBool (w.slt 0#32) = 0#1
    have : w.slt 0#32 = false := by
      simp only [BitVec.slt, BitVec.toInt_eq_toNat_cond, BitVec.toNat_ofNat]
      simp only [decide_eq_false_iff_not]
      omega
    rw [this]; rfl
  rw [hc]; exact select_zero _ _

/-- The index pairs of the scatter: row `r`'s pair is `(r, label r)`. -/
theorem spair_row (x1 : S512.Idx → BitVec 32) (r : Fin 512) :
    val_main_v62 (F := Ideal) x1 (ix2 r 0) = BitVec.ofNat 32 r.val := by
  unfold val_main_v62
  refine (concatenate_pair_apply_left (t := S512x2) (s₁ := S512x1) (s₂ := S512x1) 1 _ _
    concatenates_S512x1_S512x1_S512x2_d1 (ix2 r 0) rfl (ix2 r 0) (fun b => by
      match b with
      | ⟨0, _⟩ => rfl
      | ⟨1, _⟩ => rfl)).trans ?_
  rw [val_main_v60_apply, val_main_v54_apply, val_main_v51_apply, val_main_v50_apply, val_main_v8_apply]
  exact select_neg_wrap _ _ (by
    show (BitVec.ofNat 32 r.val).toNat < 2147483648
    rw [BitVec.toNat_ofNat]; have := r.isLt; omega)

theorem spair_col (x1 : S512.Idx → BitVec 32) (r : Fin 512) (h : (x1 (ix1 r)).toNat < 100000) :
    val_main_v62 (F := Ideal) x1 (ix2 r 1) = x1 (ix1 r) := by
  unfold val_main_v62
  refine (concatenate_pair_apply_right (t := S512x2) (s₁ := S512x1) (s₂ := S512x1) 1 _ _
    concatenates_S512x1_S512x1_S512x2_d1 (ix2 r 1) rfl rfl (ix2 r 0) (fun b hb => by
      match b with
      | ⟨0, _⟩ => rfl
      | ⟨1, _⟩ => exact absurd rfl hb) rfl).trans ?_
  rw [val_main_v61_apply, val_main_v59_apply, val_main_v56_apply, val_main_v55_apply]
  have e : idx_main_v61 (ix2 r 0) = ix1 r := funext fun a => Fin.ext (by
    match a with
    | ⟨0, _⟩ => rfl)
  rw [e]
  exact select_neg_wrap _ _ (by omega)

/-- A word below `2³¹` read as a signed integer is the natural number it holds. -/
theorem toInt_small (w : BitVec 32) (h : w.toNat < 2147483648) : w.toInt = (w.toNat : Int) := by
  rw [BitVec.toInt_eq_toNat_cond]
  split <;> omega

/-- Row `r`'s update lands at `(r, label r)`. -/
theorem scatter_target (x1 : S512.Idx → BitVec 32) (hlab : ∀ b : Fin 512, (x1 (ix1 b)).toNat < 100000) (r : Fin 512) :
    scatter_S512x100000_S512x2_S512_n_01_01_1.resultIdx? (ix1 r) (val_main_v62 (F := Ideal) x1)
      = some (ix2 r (labIx (x1 (ix1 r)))) := by
  refine scatter_lands _ r r _ ?_ ?_
  · rw [spair_row, toInt_small _ (by rw [BitVec.toNat_ofNat]; have := r.isLt; omega), BitVec.toNat_ofNat]
    have := r.isLt
    congr 1
    omega
  · have h := hlab r
    rw [spair_col x1 r h, toInt_small _ (by omega)]
    show ((x1 (ix1 r)).toNat : Int) = (((x1 (ix1 r)).toNat % 100000 : Nat) : Int)
    rw [Nat.mod_eq_of_lt h]

/-- The scatter: each row's label column is overwritten by the row's adjusted target; every other entry is kept. -/
theorem scatter_at (x0 : S512x512.Idx → EReal) (x1 : S512.Idx → BitVec 32) (x2 : S512x100000.Idx → EReal) (x3 : S_.Idx → EReal)
    (hlab : ∀ b : Fin 512, (x1 (ix1 b)).toNat < 100000) (b : Fin 512) (j : Fin 100000) :
    val_main_v63 (F := Ideal) x0 x1 x2 x3 (ix2 b j)
      = if j = labIx (x1 (ix1 b)) then val_main_v49 (F := Ideal) x0 x1 x2 (ix1 b)
        else val_main_v48 (F := Ideal) x0 x1 x2 x3 (ix2 b j) := by
  have hrow : ∀ q : S512.Idx, ∀ c : Fin 100000,
      scatter_S512x100000_S512x2_S512_n_01_01_1.resultIdx? q (val_main_v62 (F := Ideal) x1)
        = some (ix2 b c) → q = ix1 b ∧ c = labIx (x1 (ix1 b)) := fun q c e => by
    obtain ⟨r, rfl⟩ : ∃ r : Fin 512, q = ix1 r := ⟨q 0, eq_ix1 q⟩
    rw [scatter_target x1 hlab r] at e
    have e' := Option.some.inj e
    have e0 : r = b := congrFun e' 0
    have e1 : labIx (x1 (ix1 r)) = c := congrFun e' 1
    refine ⟨congrArg ix1 e0, ?_⟩
    rw [← e1, e0]
  unfold val_main_v63
  by_cases hj : j = labIx (x1 (ix1 b))
  · rw [if_pos hj]
    exact scatter_set_of_unique _ _ _ _ (ix2 b j) (ix1 b) (by rw [scatter_target x1 hlab b, hj])
      (fun q e => (hrow q j e).1)
  · rw [if_neg hj]
    exact scatter_set_of_forall_ne _ _ _ _ (ix2 b j) (fun q e => hj (hrow q j e).2)

end Out

open Out in
/-- The reference's result at row `b`, column `j`. -/
theorem out_at (x0 : S512x512.Idx → EReal) (x1 : S512.Idx → BitVec 32) (x2 : S512x100000.Idx → EReal) (x3 : S_.Idx → EReal)
    (hlab : ∀ b : Fin 512, (x1 (ix1 b)).toNat < 100000) (b : Fin 512) (j : Fin 100000) :
    val_main_v65 (F := Ideal) x0 x1 x2 x3 (ix2 b j) = outRef x0 (fun b => x1 (ix1 b)) x2 (x3 ix0) b j := by
  rw [val_main_v65_apply, val_main_v64_apply, scatter_at x0 x1 x2 x3 hlab b j, ftl_at x0 x1 x2 hlab b,
    hard_at x0 x1 x2 x3 hlab b j]
  rfl

end Cert.ReferenceIdeal.RefAt

end
-- ==== Proof.Algebra.lean ====
/-
  The two arrangements of the margin logits are one function where every class column has a positive finite squared norm
  and every label word names a class.

  A column of finite entries whose squared norm is positive has a positive real squared norm `n`, and its norm `√n` is a
  positive real. Dividing every entry of the column by `√n` before the dot product, multiplying the dot product by
  `(√n)⁻¹`, and dividing the dot product by `√n` are then the same extended real, whatever the other factor's entries are:
  a non-negative real factor distributes over a finite sum of extended reals. A clipped value is a real in `[-1, 1]`, so
  `1 - tl²` is non-negative and the guard at zero changes nothing. The scale commutes into the product, and the word test
  and the index test for the target column are one test when the label word names a class.
-/
import proofs.«422900_j39505109189162_2_alg».proof.Proof.Spec
import Idealize.ShloMosaic.PureOps.IdealRules
import Idealize.ShloMosaic.PureOps.Ideal.Laws
import Mathlib.Data.EReal.Operations

noncomputable section

namespace Cert.Margin

open Idealize.ShloMosaic Idealize.ShloMosaic.ValueIdx

/-! ## The constants -/

theorem zero_eq : zero = 0 := Ideal.ofBits_zero_f32
theorem one_eq : one = 1 := IdealRules.sign_bit.ideal_onePat .f32
theorem negOne_eq : negOne = -1 := IdealRules.sign_bit.ideal_negOnePat .f32
theorem one_eq_coe : one = ((1 : ℝ) : EReal) := by rw [one_eq, EReal.coe_one]
theorem negOne_eq_coe : negOne = ((-1 : ℝ) : EReal) := by rw [negOne_eq, EReal.coe_neg, EReal.coe_one]

/-! ## Finite sums of extended reals -/

/-- The coercion of the reals commutes with a finite sum. -/
theorem coe_sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A non-negative real factor distributes over a finite sum of extended reals. -/
theorem sum_mul_real {ι : Type} (s : Finset ι) (f : ι → EReal) (r : ℝ) (hr : 0 ≤ r) :
    (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-! ## Column norms -/

/-- A column of finite entries with positive squared norm has a positive real squared norm. -/
theorem colSq_real (k : SDN.Idx → EReal) (hk : ∀ i, k i ≠ ⊤ ∧ k i ≠ ⊥) (j : Fin 100000) (hpos : 0 < colSq k j) :
    ∃ n : ℝ, 0 < n ∧ colSq k j = (n : EReal) := by
  have h : colSq k j = ((∑ d : Fin 512, (k (ix2 d j)).toReal * (k (ix2 d j)).toReal : ℝ) : EReal) := by
    rw [← coe_sum_real]
    unfold colSq
    refine Finset.sum_congr rfl fun d _ => ?_
    rw [EReal.coe_mul, EReal.coe_toReal (hk _).1 (hk _).2]
  refine ⟨_, ?_, h⟩
  rw [h] at hpos
  exact_mod_cast hpos

/-! ## The three forms of the cosine -/

/-- Normalising the column first, scaling the dot product by the reciprocal norm, and dividing the dot product by the norm
    give one value. -/
theorem cos_forms (e : SBD.Idx → EReal) (k : SDN.Idx → EReal) (hk : ∀ i, k i ≠ ⊤ ∧ k i ≠ ⊥) (b : Fin 512) (j : Fin 100000)
    (hpos : 0 < colSq k j) : cosRef e k b j = cosKer e k b j ∧ tlKer e k b j = cosKer e k b j := by
  obtain ⟨n, hn, hc⟩ := colSq_real k hk j hpos
  have hs : 0 < Real.sqrt n := Real.sqrt_pos.mpr hn
  unfold cosRef cosKer tlKer
  rw [hc, zero_eq, zero_add, zero_add, Ideal.sqrt_coe, if_neg (not_lt.mpr hn.le), Ideal.rsqrt_coe,
    if_neg (not_lt.mpr hn.le), if_neg hn.ne']
  simp only [Ideal.div_coe hs.ne', one_div]
  refine ⟨?_, trivial⟩
  congr 1
  unfold dotCol
  rw [← sum_mul_real _ _ _ (inv_nonneg.mpr hs.le)]
  exact Finset.sum_congr rfl fun d _ => (mul_assoc _ _ _).symm

/-! ## The sine's guard -/

/-- A clipped value is a real between `-1` and `1`. -/
theorem clip_real (y : EReal) : ∃ r : ℝ, clip y = (r : EReal) ∧ -1 ≤ r ∧ r ≤ 1 := by
  have h1 : clip y ≤ ((1 : ℝ) : EReal) := by unfold clip; rw [one_eq_coe]; exact min_le_left _ _
  have h2 : ((-1 : ℝ) : EReal) ≤ clip y := by
    unfold clip; rw [one_eq_coe, negOne_eq_coe]
    exact le_min (EReal.coe_le_coe_iff.mpr (by norm_num)) (le_max_left _ _)
  have hnt : clip y ≠ ⊤ := fun h => by rw [h] at h1; exact absurd h1 (not_le.mpr (EReal.coe_lt_top 1))
  have hnb : clip y ≠ ⊥ := fun h => by rw [h] at h2; exact absurd h2 (not_le.mpr (EReal.bot_lt_coe (-1)))
  have hr := EReal.coe_toReal hnt hnb
  refine ⟨(clip y).toReal, hr.symm, ?_, ?_⟩
  · rw [← hr] at h2; exact EReal.coe_le_coe_iff.mp h2
  · rw [← hr] at h1; exact EReal.coe_le_coe_iff.mp h1

/-- On a clipped value `1 - tl²` is non-negative, so the guard at zero is the identity. -/
theorem sinKer_clip (y : EReal) : sinKer (clip y) = sinRef (clip y) := by
  obtain ⟨r, hr, h1, h2⟩ := clip_real y
  unfold sinKer sinRef
  rw [hr, one_eq, zero_eq]
  have h : (1 : EReal) - (r : EReal) * (r : EReal) = ((1 - r * r : ℝ) : EReal) := by norm_cast
  rw [h, max_eq_left]
  exact_mod_cast (by nlinarith : (0 : ℝ) ≤ 1 - r * r)

/-! ## The scale, and the test for the target column -/

/-- Scaling at the end and scaling inside each product agree. -/
theorem hardRef_mul_scale (c ctm nt : EReal) : hardRef c ctm nt * scale = hardKer c ctm nt := by
  unfold hardRef hardKer Scalar.select
  split_ifs
  · exact mul_right_comm _ _ _
  · rfl

/-- A selection on the equality test of two words is the selection on their equality. -/
theorem select_cmpi_eq {α : Type} (u v : BitVec 32) (a c : α) :
    Scalar.select (IntOp.cmpi .eq u v) a c = if u = v then a else c := by
  unfold Scalar.select IntOp.cmpi
  by_cases h : u = v
  · subst h; simp
  · have hb : (u == v) = false := by simpa using h
    simp [hb, h]

/-- A label word below the number of classes equals the word of a column's number exactly when that column is the word's class. -/
theorem lab_eq_iff (l : BitVec 32) (hl : l.toNat < 100000) (j : Fin 100000) : l = BitVec.ofNat 32 j.val ↔ j = labIx l := by
  have hj : j.val < 100000 := j.isLt
  constructor
  · intro h
    apply Fin.ext
    simp only [labIx]
    rw [h, BitVec.toNat_ofNat]
    omega
  · intro h
    apply BitVec.eq_of_toNat_eq
    rw [BitVec.toNat_ofNat, h]
    simp only [labIx]
    omega

/-! ## The result -/

/-- Where every entry of the class matrix is finite, every column's squared norm is positive and every label word is below the
    number of classes, the reference's arrangement and the kernel's agree at every row and column. -/
theorem outRef_eq_outKer (x : SBD.Idx → EReal) (lab : Fin 512 → BitVec 32) (k : SDN.Idx → EReal) (t : EReal)
    (hk : ∀ i, k i ≠ ⊤ ∧ k i ≠ ⊥) (hpos : ∀ j, 0 < colSq k j) (hlab : ∀ b, (lab b).toNat < 100000)
    (b : Fin 512) (j : Fin 100000) : outRef x lab k t b j = outKer x lab k t b j := by
  have hcos : ∀ b j, cosRef (rowUnit x) k b j = cosKer (rowUnit x) k b j := fun b j =>
    (cos_forms _ k hk b j (hpos j)).1
  have htl : ∀ b, tlR x lab k b = tlK x lab k b := fun b => by
    unfold tlR tlK
    rw [(cos_forms _ k hk b _ (hpos _)).1, (cos_forms _ k hk b _ (hpos _)).2]
  have hctm : ∀ b, ctmR x lab k b = ctmK x lab k b := fun b => by
    unfold ctmR ctmK
    rw [htl b]
    congr 1
    unfold tlK tlKer
    exact (sinKer_clip _).symm
  have hnt : ntR x lab k t = ntK x lab k t := by
    unfold ntR ntK
    simp only [htl]
  unfold outRef outKer
  rw [select_cmpi_eq]
  by_cases h : j = labIx (lab b)
  · rw [if_pos h, if_pos ((lab_eq_iff _ (hlab b) j).mpr h)]
    unfold ftlR ftlK
    rw [htl, hctm]
  · rw [if_neg h, if_neg (mt (lab_eq_iff _ (hlab b) j).mp h)]
    rw [hardRef_mul_scale, hcos, hctm, hnt]

end Cert.Margin

end
-- ==== Proof.PreFacts.lean ====
/-
  What the precondition says of the argument arrays: the class matrix's entries are finite, each of its columns has a
  positive squared norm, and each label word is below the number of classes.
-/
import proofs.«422900_j39505109189162_2_alg».proof.Proof.Spec
import proofs.«422900_j39505109189162_2_alg».proof.Pre_finite_inputs
import Idealize.ShloMosaic.Lib.ReduceAll
import Idealize.ShloMosaic.Lib.StableHlo.Predicate
import Idealize.ShloMosaic.PureOps.Ideal.Laws

noncomputable section

namespace Cert.Margin

open Idealize.ShloMosaic Idealize.ShloMosaic.ValueIdx

/-- An extended real whose absolute value lies below the word for `+∞` is neither infinity. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  simp only [StableHlo.Predicate.ofBool_eq_one_iff, decide_eq_true_eq] at h
  rw [max_lt_iff] at h
  refine ⟨ne_of_lt h.1, ?_⟩
  rintro rfl
  simp at h

/-- A 32-bit word that is signed-nonnegative and signed-below `100000` has a value below `100000`. -/
theorem word_lt_of_cmp (l : BitVec 32) (h0 : IntOp.cmpi .sge l 0#32 = 1#1) (h1 : IntOp.cmpi .slt l 100000#32 = 1#1) :
    l.toNat < 100000 := by
  unfold IntOp.cmpi at h0 h1
  simp only [StableHlo.Predicate.ofBool_eq_one_iff, BitVec.sle, BitVec.slt, decide_eq_true_eq] at h0 h1
  have e0 : (0#32 : BitVec 32).toInt = 0 := by decide
  have e1 : (100000#32 : BitVec 32).toInt = 100000 := by decide
  rw [e0] at h0
  rw [e1] at h1
  rw [BitVec.toInt_eq_toNat_cond] at h0 h1
  have hl := l.isLt
  split at h0 <;> omega

/-- The sum over the rows of the squared class matrix, from zero, read at column `j`: the column's squared norm. -/
theorem reduce_sq_eq_colSq [Cert.Pre_finite_inputs.Facts] (x2 : SDN.Idx → EReal) (j : Fin 100000) :
    Host.reduceAdd (F := Ideal) (mulf x2 x2) (constant Cert.Pre_finite_inputs.S_ .f32 0x00000000#32)
      Cert.Pre_finite_inputs.Facts.reducesTo_S512x100000_S100000_d0 Cert.Pre_finite_inputs.Facts.h_S_ (ix1 j) = colSq x2 j := by
  simp only [Host.reduceAdd, Ideal.hostReduceAdd_def]
  rw [Ideal.hostReduceAdd_single Cert.Pre_finite_inputs.Facts.reducesTo_S512x100000_S100000_d0 (by decide)]
  refine (congrArg (· + _) Ideal.ofBits_zero_f32).trans ?_
  rw [zero_add]
  unfold colSq
  refine Finset.sum_congr rfl fun k _ => ?_
  show x2 _ * x2 _ = _
  have e : ∀ i : SDN.Idx, i = ix2 (n0 := 512) k j → x2 i * x2 i = x2 (ix2 (n0 := 512) k j) * x2 (ix2 (n0 := 512) k j) := fun i hi => by rw [hi]
  exact e _ (funext fun a => Fin.ext (by match a with | ⟨0, _⟩ => rfl | ⟨1, _⟩ => rfl))

theorem of_pre [Cert.Pre_finite_inputs.Facts] (x0 : SBD.Idx → EReal) (x1 : SB.Idx → BitVec 32) (x2 : SDN.Idx → EReal) (x3 : S0.Idx → EReal)
    (h : Cert.Pre_finite_inputs.fn (F := Ideal) x0 x1 x2 x3 = fun _ => 1#1) :
    (∀ i, x2 i ≠ ⊤ ∧ x2 i ≠ ⊥) ∧ (∀ j, 0 < colSq x2 j) ∧ (∀ b : Fin 512, (x1 (ix1 b)).toNat < 100000) := by
  haveI : Subsingleton Cert.Pre_finite_inputs.S_.Idx := ⟨fun a b => funext fun d => d.elim0⟩
  -- the printed conjunction at its one index, split into its six conjuncts
  have h0 := congrFun h ValueIdx.ix0
  dsimp only [Cert.Pre_finite_inputs.fn, Cert.Pre_finite_inputs.fn_part1, andi] at h0
  obtain ⟨⟨⟨⟨⟨_, hx2⟩, _⟩, hge⟩, hlt⟩, hcol⟩ :
      ((((_ ∧ _) ∧ _) ∧ _) ∧ _) ∧ _ := by
    simpa only [IntOp.andi_eq_one] using h0
  refine ⟨fun i => ?_, fun j => ?_, fun b => ?_⟩
  · -- every entry of the class matrix has absolute value below +∞
    have e := Host.reduce_andi_all _ _ _ _ _ hx2 i
    exact finite_of_abs_lt (x2 i) e
  · -- column j's sum of squares exceeds zero
    have e := Host.reduce_andi_all _ _ _ _ _ hcol (ix1 j)
    dsimp only [cmpf] at e
    rw [reduce_sq_eq_colSq x2 j, StableHlo.Predicate.bcast_scalar _ Cert.Pre_finite_inputs.Facts.h_S_] at e
    have e' : Ideal.cmp .ogt (colSq x2 j) (Ideal.ofBits .f32 0x00000000#32) = 1#1 := e
    rw [Ideal.ofBits_zero_f32] at e'
    unfold Ideal.cmp at e'
    simpa only [StableHlo.Predicate.ofBool_eq_one_iff, decide_eq_true_eq] using e'
  · -- row b's label word is signed-nonnegative and signed-below 100000
    have e0 := Host.reduce_andi_all _ _ _ _ _ hge (ix1 b)
    have e1 := Host.reduce_andi_all _ _ _ _ _ hlt (ix1 b)
    exact word_lt_of_cmp (x1 (ix1 b)) e0 e1

end Cert.Margin

end
-- ==== Proof.lean ====
/-
  The certificate of the margin-logit kernel against its reference: 512 embeddings of dimension 512 against 100000 class
  columns. Both programs normalise each embedding row, take each row's cosine against every class column, clip it to
  [-1, 1], re-weight the cosines above the row's margin threshold, overwrite the row's own class column by its adjusted
  target and scale by 64. They differ in arrangement: the reference divides every entry of a class column by the column's
  norm before the dot product and scales at the very end; the kernel scales the raw dot product by the reciprocal square
  root of the column's squared norm, one column tile of 2048 at a time, takes each row's target cosine on the host from
  the raw dot product divided by the gathered column's norm, and folds the scale into the products. Over the extended
  reals the two are one function where every class column has a positive, finite squared norm and every label names a
  class — which the precondition says (outside it the reference itself divides zero by zero or indexes out of range).
  The word-level program's frame is proved with relational proof data (its result's contents are not named); the
  idealized program's run names its result tile by tile; the reference's run and its stages are the generated ones.
-/
import proofs.«422900_j39505109189162_2_alg».proof.Defs
import proofs.«422900_j39505109189162_2_alg».proof.Proof.Gen.Kernel
import proofs.«422900_j39505109189162_2_alg».proof.Proof.Gen.KernelIdeal
import proofs.«422900_j39505109189162_2_alg».proof.Proof.Gen.ReferenceIdeal
import proofs.«422900_j39505109189162_2_alg».proof.Proof.Gen.Pre_finite_inputs
import proofs.«422900_j39505109189162_2_alg».proof.Proof.Gen.ReferenceIdeal.Run
import proofs.«422900_j39505109189162_2_alg».proof.Proof.Gen.ReferenceIdeal.Read
import proofs.«422900_j39505109189162_2_alg».proof.Proof.KernelBitsFrame
import proofs.«422900_j39505109189162_2_alg».proof.Proof.KernelFrame
import proofs.«422900_j39505109189162_2_alg».proof.Proof.KernelValue
import proofs.«422900_j39505109189162_2_alg».proof.Proof.RefOut
import proofs.«422900_j39505109189162_2_alg».proof.Proof.Algebra
import proofs.«422900_j39505109189162_2_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs and leaves its arguments unchanged. -/
theorem frame_k : Cert.frame_Kernel := Cert.Kernel.BitsRun.frame

/-- The idealized program's run with its result array named: what the 49 write-backs leave in it, and the arguments
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v46)
          = (Cert.KernelIdeal.Data.dats m 0 c).arrAt 6 Cert.KernelIdeal.cfg0.N
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨(h c).1 6,
     ((h c).2 Cert.KernelIdeal.main_arg0 (Pipeline.mem_restRefs_of Cert.KernelIdeal.main_arg0 (by decide) (by decide))).trans (Cert.KernelIdeal.Gen.V_main_arg0 m c),
     ((h c).2 Cert.KernelIdeal.main_arg1 (Pipeline.mem_restRefs_of Cert.KernelIdeal.main_arg1 (by decide) (by decide))).trans (Cert.KernelIdeal.Gen.V_main_arg1 m c),
     ((h c).1 1).trans (((Cert.KernelIdeal.Data.dats m 0 c).arrAt_in 1 rfl _).trans (Cert.KernelIdeal.Gen.V_main_arg2 m c)),
     ((h c).2 Cert.KernelIdeal.main_arg3 (Pipeline.mem_restRefs_of Cert.KernelIdeal.main_arg3 (by decide) (by decide))).trans (Cert.KernelIdeal.Gen.V_main_arg3 m c)⟩)
    (Cert.KernelIdeal.Run.run_main m ρ)

/-- The idealized program runs and leaves its arguments unchanged. -/
theorem frame_ki : Cert.frame_KernelIdeal := fun m ρ _ =>
  (θ_run Cert.KernelIdeal.defs _ _).mono (fun _ h c => (h c).2) (kernel_run m ρ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized program is the word-level program's own text. -/
theorem preserves : Cert.preserves_Kernel_KernelIdeal := trivial

/-- From memories that agree on the arguments both programs end with one result: entry by entry, the reference's
    stages read at (row, column) are the reference's arrangement of the margin logits, the kernel's tiles the kernel's
    arrangement, and the two arrangements agree where the precondition holds. -/
theorem algebraic : Cert.algebraic_KernelIdeal_ReferenceIdeal := by
  intro m ρ m' ρ' hpre hagree
  refine ⟨fun c => (Cert.KernelIdeal.Data.dats m 0 c).arrAt 6 Cert.KernelIdeal.cfg0.N, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hk, hpos, hlab⟩ := Cert.Margin.of_pre _ _ _ _ (hpre c)
  rw [Cert.ReferenceIdeal.Read.val_main_v65_eq, (hagree c).1, (hagree c).2.1, (hagree c).2.2.1, (hagree c).2.2.2]
  funext i
  obtain ⟨b, j, rfl⟩ : ∃ (b : Fin 512) (j : Fin 100000), i = ix2 b j := ⟨i 0, i 1, eq_ix2 i⟩
  rw [Cert.ReferenceIdeal.RefAt.out_at _ _ _ _ hlab b j, Cert.Margin.outRef_eq_outKer _ _ _ _ hk hpos hlab b j]
  exact (Cert.KernelIdeal.Final.final_at m c hlab b j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
